-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg11 : FVec F S16 .f32) (main_arg12 : FVec F S128x16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S128x16 .f32 := Host.absf main_arg12
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  main_v63

def fn_part2 {F : FTy → Type} [FloatOps F] (main_arg7 : FVec F S128x16 .f32) (main_arg8 : FVec F S16 .f32) (main_arg9 : FVec F S128x16 .f32) (main_arg10 : FVec F S128x16 .f32) (main_arg11 : FVec F S16 .f32) (main_arg12 : FVec F S128x16 .f32) (main_v33 : IVec S_ 1) : IVec S_ 1 :=
  let main_v34 : FVec F S128x16 .f32 := Host.absf main_arg7
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S128x16 .f32 := Host.absf main_arg9
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S128x16 .f32 := Host.absf main_arg10
  let main_cst_18 : FVec F S_ .f32 := constant S_ .f32 0x7F800000#32
  let main_v50 : FVec F S128x16 .f32 := broadcastInDim S128x16 ![] bcast_S_S128x16 main_cst_18
  fn_part3 (F := F) main_arg11 main_arg12 main_v48 main_v49 main_v50

def fn_part1 {F : FTy → Type} [FloatOps F] (main_arg4 : FVec F S256x128 .f32) (main_arg5 : FVec F S128 .f32) (main_arg6 : FVec F S256x128 .f32) (main_arg7 : FVec F S128x16 .f32) (main_arg8 : FVec F S16 .f32) (main_arg9 : FVec F S128x16 .f32) (main_arg10 : FVec F S128x16 .f32) (main_arg11 : FVec F S16 .f32) (main_arg12 : FVec F S128x16 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S64x256 .f32) (main_arg2 : FVec F S256 .f32) (main_arg3 : FVec F S64x256 .f32) (main_arg4 : FVec F S256x128 .f32) (main_arg5 : FVec F S128 .f32) (main_arg6 : FVec F S256x128 .f32) (main_arg7 : FVec F S128x16 .f32) (main_arg8 : FVec F S16 .f32) (main_arg9 : FVec F S128x16 .f32) (main_arg10 : FVec F S128x16 .f32) (main_arg11 : FVec F S16 .f32) (main_arg12 : FVec F S128x16 .f32) (main_arg13 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S800000x256 : Shape := ⟨2, ![800000, 256]⟩
abbrev S1x128 : Shape := ⟨2, ![1, 128]⟩
abbrev S50000x128 : Shape := ⟨2, ![50000, 128]⟩
abbrev S2000x128 : Shape := ⟨2, ![2000, 128]⟩
abbrev S800000x128 : Shape := ⟨2, ![800000, 128]⟩
abbrev S1x16 : Shape := ⟨2, ![1, 16]⟩
abbrev S50000x16 : Shape := ⟨2, ![50000, 16]⟩
abbrev S2000x16 : Shape := ⟨2, ![2000, 16]⟩

abbrev nBuf : Space → Nat
  | .hbm => 93
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S64x256, .f32⟩
  | .hbm, ⟨2, _⟩ => ⟨S256, .f32⟩
  | .hbm, ⟨3, _⟩ => ⟨S64x256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128x16, .f32⟩
  | .hbm, ⟨8, _⟩ => ⟨S16, .f32⟩
  | .hbm, ⟨9, _⟩ => ⟨S128x16, .f32⟩
  | .hbm, ⟨10, _⟩ => ⟨S128x16, .f32⟩
  | .hbm, ⟨11, _⟩ => ⟨S16, .f32⟩
  | .hbm, ⟨12, _⟩ => ⟨S128x16, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x1, .f32⟩
  | .hbm, ⟨51, _⟩ => ⟨S50000x64, .f32⟩
  | .hbm, ⟨52, _⟩ => ⟨S50000x64, .f32⟩
  | .hbm, ⟨53, _⟩ => ⟨S1x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S1x16, .f32⟩
  | .hbm, ⟨90, _⟩ => ⟨S1x16, .f32⟩
  | .hbm, ⟨91, _⟩ => ⟨S50000x16, .f32⟩
  | .hbm, ⟨92, _⟩ => ⟨S50000x16, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S1x256, .f32⟩
  | .local _ .vmem, ⟨6, _⟩ => ⟨S64x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x16, .f32⟩
  | .local _ .vmem, ⟨23, _⟩ => ⟨S1x16, .f32⟩
  | .local _ .vmem, ⟨24, _⟩ => ⟨S128x16, .f32⟩
  | .local _ .vmem, ⟨25, _⟩ => ⟨S128x16, .f32⟩
  | .local _ .vmem, ⟨26, _⟩ => ⟨S1x16, .f32⟩
  | .local _ .vmem, ⟨27, _⟩ => ⟨S128x16, .f32⟩
  | .local _ .vmem, ⟨28, _⟩ => ⟨S2000x16, .f32⟩
  | .local _ .vmem, ⟨29, _⟩ => ⟨S2000x16, .f32⟩
  | .local _ .vmem, ⟨30, _⟩ => ⟨S2000x16, .f32⟩
  | .local _ .vmem, ⟨31, _⟩ => ⟨S2000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S16_S1x16 : S16.ShapeCasts S1x16
  shapeCasts_S2000x128_S2000x128 : S2000x128.ShapeCasts S2000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x16.size a ≤ S128x16.size a
  hwx2_2 : ∀ i : grid2.Coords, EltTy.bits .f32 = 32 ∨ (Rect.block (s := S128x16) S128x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x16.size a ≤ S128x16.size a
  hwx2_4 : ∀ i : grid2.Coords, EltTy.bits .f32 = 32 ∨ (Rect.block (s := S128x16) S128x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x16.size a ≤ S128x16.size a
  hwx2_7 : ∀ i : grid2.Coords, EltTy.bits .f32 = 32 ∨ (Rect.block (s := S128x16) S128x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x16.size a ≤ S50000x16.size a
  hwx2_8 : ∀ i : grid2.Coords, EltTy.bits .f32 = 32 ∨ (Rect.block (s := S50000x16) S2000x16.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x16.size a ≤ S50000x16.size a
  hwx2_9 : ∀ i : grid2.Coords, EltTy.bits .f32 = 32 ∨ (Rect.block (s := S50000x16) S2000x16.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v27) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S128x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60_0) S2000x16.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v60_1) S2000x16.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x64 : Shape := ⟨2, ![50000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩
abbrev S50000x16 : Shape := ⟨2, ![50000, 16]⟩
abbrev S1x16 : Shape := ⟨2, ![1, 16]⟩

abbrev nBuf : Space → Nat
  | .hbm => 131
  | .vmem => 0
  | .smem => 0
  | _ => 0

abbrev hbmTy0_0 (i : Nat) : BufTy := match i % 128 with
  | 0 => ⟨S50000x64, .f32⟩
  | 1 => ⟨S64x256, .f32⟩
  | 2 => ⟨S256, .f32⟩
  | 3 => ⟨S64x256, .f32⟩
  | 4 => ⟨S256x128, .f32⟩
  | 5 => ⟨S128, .f32⟩
  | 6 => ⟨S256x128, .f32⟩
  | 7 => ⟨S128x16, .f32⟩
  | 8 => ⟨S16, .f32⟩
  | 9 => ⟨S128x16, .f32⟩
  | 10 => ⟨S128x16, .f32⟩
  | 11 => ⟨S16, .f32⟩
  | 12 => ⟨S128x16, .f32⟩
  | 13 => ⟨S2x800000, .i32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S_, .f32⟩
  | 47 => ⟨S50000x64, .f32⟩
  | 48 => ⟨S800000x1, .i32⟩
  | 49 => ⟨S50000x64, .f32⟩
  | 50 => ⟨S50000x1, .f32⟩
  | 51 => ⟨S50000x64, .f32⟩
  | 52 => ⟨S50000x64, .f32⟩
  | 53 => ⟨S50000x256, .f32⟩
  | 54 => ⟨S1x256, .f32⟩
  | 55 => ⟨S50000x256, .f32⟩
  | 56 => ⟨S50000x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x256, .f32⟩
  | 71 => ⟨S_, .f32⟩
  | 72 => ⟨S50000x256, .f32⟩
  | 73 => ⟨S800000x1, .i32⟩
  | 74 => ⟨S50000x256, .f32⟩
  | 75 => ⟨S50000x1, .f32⟩
  | 76 => ⟨S50000x256, .f32⟩
  | 77 => ⟨S50000x256, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x1, .f32⟩
  | 101 => ⟨S50000x128, .f32⟩
  | 102 => ⟨S50000x128, .f32⟩
  | 103 => ⟨S50000x16, .f32⟩
  | 104 => ⟨S1x16, .f32⟩
  | 105 => ⟨S50000x16, .f32⟩
  | 106 => ⟨S50000x16, .f32⟩
  | 107 => ⟨S50000x16, .f32⟩
  | 108 => ⟨S50000x16, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x1, .f32⟩
  | 123 => ⟨S50000x128, .f32⟩
  | 124 => ⟨S50000x128, .f32⟩
  | 125 => ⟨S50000x16, .f32⟩
  | 126 => ⟨S1x16, .f32⟩
  | 127 => ⟨S50000x16, .f32⟩
  | _ => ⟨S50000x64, .f32⟩

abbrev hbmTy0_1 (i : Nat) : BufTy := match i % 128 with
  | 0 => ⟨S50000x16, .f32⟩
  | 1 => ⟨S50000x16, .f32⟩
  | 2 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_cst : Ref sig .tc := ⟨.hbm, 59, rfl⟩
abbrev main_call1_v0 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_c_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Net.lean ====
/-
  The graph network both programs compute, named piece by piece over whole arrays.

  An edge list `e : i32[2, 800000]` gives each edge a source row (row 0, a negative entry wrapped by adding the
  node count) and a destination row (row 1).  The in-degree of a node is the number of edges that end in it; its
  reciprocal is taken where the degree is positive and is zero elsewhere.  The mean aggregation of a feature array
  gathers the source rows, adds them into the destination rows and scales row `i` by the reciprocal degree of `i`.
  A convolution layer is `agg · W_rel + b + x · W_root`; the two hidden layers clamp it below at zero, the two
  output heads do not.  Every operation here is the host's, on whole arrays, in the order the reference applies
  them, so the reference's result is the composition of these functions by definition.
-/
import proofs.«130011_j27066883899544_1_alg».proof.Proof.Gen.ReferenceIdeal

noncomputable section

namespace Cert.Net

open Cert.ReferenceIdeal Cert.ReferenceIdeal.Gen Idealize.ShloMosaic Idealize.ShloMosaic.TcCoe

variable {F : FTy → Type} [FloatOps F]

/-- The contents of an array of shape `s` and element type `t`. -/
abbrev Arr (F : FTy → Type) (s : Shape) (t : EltTy) := (⟨s, t⟩ : BufTy).Contents (Elt F)

/-- Row 0 of the edge list: each edge's source node, as written. -/
def edgeSrc (e : Arr F S2x800000 .i32) : Arr F S800000 .i32 :=
  shapeCast _ (extractStridedSlice S1x800000 ![0, 0] e slices_S2x800000_S1x800000_0_0) shapeCasts_S1x800000_S800000

/-- Row 1 of the edge list: each edge's destination node. -/
def edgeDst (e : Arr F S2x800000 .i32) : Arr F S800000 .i32 :=
  shapeCast _ (extractStridedSlice S1x800000 ![1, 0] e slices_S2x800000_S1x800000_1_0) shapeCasts_S1x800000_S800000

/-- The row each edge gathers: its source node, a negative entry counted from the end (50000 added). -/
def srcRows (e : Arr F S2x800000 .i32) : Arr F S800000x1 .i32 :=
  broadcastInDim S800000x1 ![0] bcast_S800000_S800000x1_0 (select (cmpi .slt (edgeSrc e) (broadcastInDim S800000 ![] bcast_S_S800000 (constantI S_ 32 0#32))) (addi (edgeSrc e) (broadcastInDim S800000 ![] bcast_S_S800000 (constantI S_ 32 50000#32))) (edgeSrc e))

/-- The row each edge adds into: its destination node. -/
def dstRows (e : Arr F S2x800000 .i32) : Arr F S800000x1 .i32 :=
  broadcastInDim S800000x1 ![0] bcast_S800000_S800000x1_0 (edgeDst e)

/-- The in-degree of every node: a one added per edge into its destination. -/
def inDegree (e : Arr F S2x800000 .i32) : Arr F S50000 .f32 :=
  Host.scatterAdd scatter_S50000_S800000x1_S800000_n_0_0_1 (broadcastInDim S50000 ![] bcast_S_S50000 (constant S_ .f32 0x00000000#32)) (dstRows e) (broadcastInDim S800000 ![] bcast_S_S800000 (constant S_ .f32 0x3F800000#32))

/-- `1 / max(deg, 1)` where the degree is positive, zero elsewhere. -/
def invDegree (e : Arr F S2x800000 .i32) : Arr F S50000 .f32 :=
  select (cmpf .ogt (inDegree e) (broadcastInDim S50000 ![] bcast_S_S50000 (constant S_ .f32 0x00000000#32))) (Host.divf (broadcastInDim S50000 ![] bcast_S_S50000 (constant S_ .f32 0x3F800000#32)) (maximumf (inDegree e) (broadcastInDim S50000 ![] bcast_S_S50000 (constant S_ .f32 0x3F800000#32)))) (broadcastInDim S50000 ![] bcast_S_S50000 (id (constant S_ .f32 0x00000000#32)))

/-- Mean aggregation of 64 features per node: gather the source rows, add into the destination rows, scale each
    row by its reciprocal degree. -/
def meanAgg64 (x : Arr F S50000x64 .f32) (e : Arr F S2x800000 .i32) : Arr F S50000x64 .f32 :=
  mulf (Host.scatterAdd scatter_S50000x64_S800000x1_S800000x64_1_0_0_1 (broadcastInDim S50000x64 ![] bcast_S_S50000x64 (constant S_ .f32 0x00000000#32)) (dstRows e) (Host.gather gather_S50000x64_S800000x1_S800000x64_1_0_n_n_0_1_164 x (srcRows e))) (broadcastInDim S50000x64 ![0, 1] bcast_S50000x1_S50000x64_0_1 (broadcastInDim S50000x1 ![0] bcast_S50000_S50000x1_0 (invDegree e)))

/-- Mean aggregation of 256 features per node. -/
def meanAgg256 (x : Arr F S50000x256 .f32) (e : Arr F S2x800000 .i32) : Arr F S50000x256 .f32 :=
  mulf (Host.scatterAdd scatter_S50000x256_S800000x1_S800000x256_1_0_0_1 (broadcastInDim S50000x256 ![] bcast_S_S50000x256 (constant S_ .f32 0x00000000#32)) (dstRows e) (Host.gather gather_S50000x256_S800000x1_S800000x256_1_0_n_n_0_1_1256 x (srcRows e))) (broadcastInDim S50000x256 ![0, 1] bcast_S50000x1_S50000x256_0_1 (broadcastInDim S50000x1 ![0] bcast_S50000_S50000x1_0 (invDegree e)))

/-- Mean aggregation of 128 features per node. -/
def meanAgg128 (x : Arr F S50000x128 .f32) (e : Arr F S2x800000 .i32) : Arr F S50000x128 .f32 :=
  mulf (Host.scatterAdd scatter_S50000x128_S800000x1_S800000x128_1_0_0_1 (broadcastInDim S50000x128 ![] bcast_S_S50000x128 (constant S_ .f32 0x00000000#32)) (dstRows e) (Host.gather gather_S50000x128_S800000x1_S800000x128_1_0_n_n_0_1_1128 x (srcRows e))) (broadcastInDim S50000x128 ![0, 1] bcast_S50000x1_S50000x128_0_1 (broadcastInDim S50000x1 ![0] bcast_S50000_S50000x1_0 (invDegree e)))

/-- The first layer, 64 → 256: `max(a · W_rel + b + x · W_root, 0)`. -/
def conv1 (a x : Arr F S50000x64 .f32) (wrel : Arr F S64x256 .f32) (b : Arr F S256 .f32) (wroot : Arr F S64x256 .f32) : Arr F S50000x256 .f32 :=
  maximumf (addf (addf (Host.dotGeneral dot_S50000x64_S64x256_S50000x256_1_0_0_1_n_n none a wrel) (broadcastInDim S50000x256 ![0, 1] bcast_S1x256_S50000x256_0_1 (broadcastInDim S1x256 ![1] bcast_S256_S1x256_1 b))) (Host.dotGeneral dot_S50000x64_S64x256_S50000x256_1_0_0_1_n_n none x wroot)) (broadcastInDim S50000x256 ![] bcast_S_S50000x256 (constant S_ .f32 0x00000000#32))

/-- The second layer, 256 → 128: `max(a · W_rel + b + x · W_root, 0)`. -/
def conv2 (a x : Arr F S50000x256 .f32) (wrel : Arr F S256x128 .f32) (b : Arr F S128 .f32) (wroot : Arr F S256x128 .f32) : Arr F S50000x128 .f32 :=
  maximumf (addf (addf (Host.dotGeneral dot_S50000x256_S256x128_S50000x128_1_0_0_1_n_n none a wrel) (broadcastInDim S50000x128 ![0, 1] bcast_S1x128_S50000x128_0_1 (broadcastInDim S1x128 ![1] bcast_S128_S1x128_1 b))) (Host.dotGeneral dot_S50000x256_S256x128_S50000x128_1_0_0_1_n_n none x wroot)) (broadcastInDim S50000x128 ![] bcast_S_S50000x128 (constant S_ .f32 0x00000000#32))

/-- An output head, 128 → 16: `a · W_rel + b + x · W_root`, not clamped. -/
def head (a x : Arr F S50000x128 .f32) (wrel : Arr F S128x16 .f32) (b : Arr F S16 .f32) (wroot : Arr F S128x16 .f32) : Arr F S50000x16 .f32 :=
  addf (addf (Host.dotGeneral dot_S50000x128_S128x16_S50000x16_1_0_0_1_n_n none a wrel) (broadcastInDim S50000x16 ![0, 1] bcast_S1x16_S50000x16_0_1 (broadcastInDim S1x16 ![1] bcast_S16_S1x16_1 b))) (Host.dotGeneral dot_S50000x128_S128x16_S50000x16_1_0_0_1_n_n none x wroot)

/-- The first hidden features of the network. -/
def hidden1 (x : Arr F S50000x64 .f32) (w1rel : Arr F S64x256 .f32) (b1 : Arr F S256 .f32) (w1root : Arr F S64x256 .f32) (e : Arr F S2x800000 .i32) : Arr F S50000x256 .f32 :=
  conv1 (meanAgg64 x e) x w1rel b1 w1root

/-- The second hidden features, from the first. -/
def hidden2 (h1 : Arr F S50000x256 .f32) (w2rel : Arr F S256x128 .f32) (b2 : Arr F S128 .f32) (w2root : Arr F S256x128 .f32) (e : Arr F S2x800000 .i32) : Arr F S50000x128 .f32 :=
  conv2 (meanAgg256 h1 e) h1 w2rel b2 w2root

/-- An output of the network, from the second hidden features. -/
def output (h2 : Arr F S50000x128 .f32) (wrel : Arr F S128x16 .f32) (b : Arr F S16 .f32) (wroot : Arr F S128x16 .f32) (e : Arr F S2x800000 .i32) : Arr F S50000x16 .f32 :=
  head (meanAgg128 h2 e) h2 wrel b wroot

end Cert.Net

end
-- ==== Proof.RefNet.lean ====
/-
  The reference's two results are the network's two outputs of its arguments: each result's composed term is, by
  definition, the named functions of `Net` composed in the order the reference applies them.
-/
import proofs.«130011_j27066883899544_1_alg».proof.Proof.RefRun
import proofs.«130011_j27066883899544_1_alg».proof.Proof.Net

set_option maxRecDepth 16384

noncomputable section

namespace Cert.Net

open Cert.ReferenceIdeal Cert.ReferenceIdeal.Gen Idealize.ShloMosaic Idealize.ShloMosaic.TcCoe Idealize.SL.Sem

variable {F : FTy → Type} [FloatOps F]

/-- The second hidden features of a memory's arguments. -/
def hiddenOf (m : (ℓ : Loc nD τ sig) → Buf (Elt F) ℓ) (c : Dev nD) : Arr F S50000x128 .f32 :=
  hidden2 (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg13)))
    (m ((c.tc : Thread nD τ).loc main_arg4)) (m ((c.tc : Thread nD τ).loc main_arg5)) (m ((c.tc : Thread nD τ).loc main_arg6)) (m ((c.tc : Thread nD τ).loc main_arg13))

/-- The reference's first result is the first output head of the second hidden features. -/
theorem res_mu (m : (ℓ : Loc nD τ sig) → Buf (Elt F) ℓ) (c : Dev nD) :
    Cert.ReferenceIdeal.ValueP.res_main_v73 m c
      = output (hiddenOf m c) (m ((c.tc : Thread nD τ).loc main_arg7)) (m ((c.tc : Thread nD τ).loc main_arg8)) (m ((c.tc : Thread nD τ).loc main_arg9)) (m ((c.tc : Thread nD τ).loc main_arg13)) := by
  unfold Cert.ReferenceIdeal.ValueP.res_main_v73
  rfl

/-- The reference's second result is the second output head of the same features. -/
theorem res_ls (m : (ℓ : Loc nD τ sig) → Buf (Elt F) ℓ) (c : Dev nD) :
    Cert.ReferenceIdeal.ValueP.res_main_v92 m c
      = output (hiddenOf m c) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.ValueP.res_main_v92
  rfl

end Cert.Net

end
-- ==== Proof.Entry.lean ====
/-
  What each region finds in its operands' arrays when it is entered.

  Between two regions @main runs host operations only.  The edge rows and the reciprocal degrees are computed once,
  before the first region, and no later operation or region writes their buffers; before each region the host
  gathers the current features' source rows, adds them into the destination rows and scales by the reciprocal
  degree: the mean aggregation of what the region before left (of the input features, for the first).  The weights
  are arguments, which nothing writes, and each bias is the argument reshaped to one row.
-/
import proofs.«130011_j27066883899544_1_alg».proof.Proof.Gen.KernelIdeal.Frame
import proofs.«130011_j27066883899544_1_alg».proof.Proof.Net
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch of host operations writes holds after the stretch what it held
    before: the goal `after ops V b = V b`, each operation's written buffer told apart from `b`. -/
syntax "host_keeps " ident : tactic
macro_rules
  | `(tactic| host_keeps $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide))))

/-! ## Region 0: the first layer's operands -/

/-- The aggregated input features. -/
theorem entry0_agg (c : Dev nD) : W3 m ρ c (Proc.devRef .tc main_v27) = Cert.Net.meanAgg64 (m ((c : Thread nD τ).loc main_arg0)) (m ((c : Thread nD τ).loc main_arg13)) := by
  show StableHlo.after hostOps0_2 (W2 m ρ c) (Proc.devRef .tc main_v27) = _
  after_results_simp
  rfl
/-- The input features. -/
theorem entry0_x (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl
theorem entry0_wrel (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl
/-- The bias as one row. -/
theorem entry0_bias (c : Dev nD) : W3 m ρ c (Proc.devRef .tc main_v28) = shapeCast S1x256 (m ((c : Thread nD τ).loc main_arg2)) shapeCasts_S256_S1x256 := by
  show StableHlo.after hostOps0_2 (W2 m ρ c) (Proc.devRef .tc main_v28) = _
  after_results
  rfl
theorem entry0_wroot (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-! ## What the host computes once, before the first region, and what nothing writes afterwards: the edge rows,
    the reciprocal degrees, and the arguments of the later layers -/

/-- The edge sources, as region 0 finds them. -/
theorem W3_src (c : Dev nD) : W3 m ρ c (Proc.devRef .tc main_v1) = Cert.Net.edgeSrc (m ((c : Thread nD τ).loc main_arg13)) :=
  calc W3 m ρ c (Proc.devRef .tc main_v1)
    _ = W2 m ρ c (Proc.devRef .tc main_v1) := by host_keeps hostOps0_2
    _ = W1 m ρ c (Proc.devRef .tc main_v1) := by host_keeps hostOps0_1
    _ = Cert.Net.edgeSrc (m ((c : Thread nD τ).loc main_arg13)) := by
      show StableHlo.after hostOps0 (W0 m ρ c) (Proc.devRef .tc main_v1) = _
      after_results
      rfl

/-- The edge destinations, as region 0 finds them. -/
theorem W3_dst (c : Dev nD) : W3 m ρ c (Proc.devRef .tc main_v3) = Cert.Net.edgeDst (m ((c : Thread nD τ).loc main_arg13)) :=
  calc W3 m ρ c (Proc.devRef .tc main_v3)
    _ = W2 m ρ c (Proc.devRef .tc main_v3) := by host_keeps hostOps0_2
    _ = W1 m ρ c (Proc.devRef .tc main_v3) := by host_keeps hostOps0_1
    _ = Cert.Net.edgeDst (m ((c : Thread nD τ).loc main_arg13)) := by
      show StableHlo.after hostOps0 (W0 m ρ c) (Proc.devRef .tc main_v3) = _
      after_results
      rfl

/-- The reciprocal degrees, as region 0 finds them. -/
theorem W3_inv (c : Dev nD) : W3 m ρ c (Proc.devRef .tc main_v14) = Cert.Net.invDegree (m ((c : Thread nD τ).loc main_arg13)) :=
  calc W3 m ρ c (Proc.devRef .tc main_v14)
    _ = W2 m ρ c (Proc.devRef .tc main_v14) := by host_keeps hostOps0_2
    _ = Cert.Net.invDegree (m ((c : Thread nD τ).loc main_arg13)) := by
      show StableHlo.after hostOps0_1 (W1 m ρ c) (Proc.devRef .tc main_v14) = _
      after_results_simp
      rfl

/-- Region 0 writes none of the three: it leaves them as it found them. -/
theorem W4_src (c : Dev nD) : W4 m ρ c (Proc.devRef .tc main_v1) = Cert.Net.edgeSrc (m ((c : Thread nD τ).loc main_arg13)) :=
  (W4_of_ne m ρ c main_v1 (by decide)).trans (W3_src m ρ c)
theorem W4_dst (c : Dev nD) : W4 m ρ c (Proc.devRef .tc main_v3) = Cert.Net.edgeDst (m ((c : Thread nD τ).loc main_arg13)) :=
  (W4_of_ne m ρ c main_v3 (by decide)).trans (W3_dst m ρ c)
theorem W4_inv (c : Dev nD) : W4 m ρ c (Proc.devRef .tc main_v14) = Cert.Net.invDegree (m ((c : Thread nD τ).loc main_arg13)) :=
  (W4_of_ne m ρ c main_v14 (by decide)).trans (W3_inv m ρ c)

/-- Nor do the host operations before region 1, nor region 1. -/
theorem W6_src (c : Dev nD) : W6 m ρ c (Proc.devRef .tc main_v1) = Cert.Net.edgeSrc (m ((c : Thread nD τ).loc main_arg13)) :=
  calc W6 m ρ c (Proc.devRef .tc main_v1)
    _ = W5 m ρ c (Proc.devRef .tc main_v1) := W6_of_ne m ρ c main_v1 (by decide)
    _ = W4 m ρ c (Proc.devRef .tc main_v1) := by host_keeps hostOps1
    _ = Cert.Net.edgeSrc (m ((c : Thread nD τ).loc main_arg13)) := W4_src m ρ c
theorem W6_dst (c : Dev nD) : W6 m ρ c (Proc.devRef .tc main_v3) = Cert.Net.edgeDst (m ((c : Thread nD τ).loc main_arg13)) :=
  calc W6 m ρ c (Proc.devRef .tc main_v3)
    _ = W5 m ρ c (Proc.devRef .tc main_v3) := W6_of_ne m ρ c main_v3 (by decide)
    _ = W4 m ρ c (Proc.devRef .tc main_v3) := by host_keeps hostOps1
    _ = Cert.Net.edgeDst (m ((c : Thread nD τ).loc main_arg13)) := W4_dst m ρ c
theorem W6_inv (c : Dev nD) : W6 m ρ c (Proc.devRef .tc main_v14) = Cert.Net.invDegree (m ((c : Thread nD τ).loc main_arg13)) :=
  calc W6 m ρ c (Proc.devRef .tc main_v14)
    _ = W5 m ρ c (Proc.devRef .tc main_v14) := W6_of_ne m ρ c main_v14 (by decide)
    _ = W4 m ρ c (Proc.devRef .tc main_v14) := by host_keeps hostOps1
    _ = Cert.Net.invDegree (m ((c : Thread nD τ).loc main_arg13)) := W4_inv m ρ c

/-! ## Region 1: the second layer's operands, over what region 0 left in `main_v29` -/

/-- The aggregated first hidden features. -/
theorem entry1_agg (c : Dev nD) : W5 m ρ c (Proc.devRef .tc main_v42) = Cert.Net.meanAgg256 (W4 m ρ c (Proc.devRef .tc main_v29)) (m ((c : Thread nD τ).loc main_arg13)) := by
  show StableHlo.after hostOps1 (W4 m ρ c) (Proc.devRef .tc main_v42) = _
  after_results_simp
  rw [W4_src, W4_dst, W4_inv]
  rfl
/-- The first hidden features, as region 0 left them. -/
theorem entry1_x (c : Dev nD) : W5 m ρ c (Proc.devRef .tc main_v29) = W4 m ρ c (Proc.devRef .tc main_v29) := by
  host_keeps hostOps1
theorem entry1_wrel (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps1
    _ = W3 m ρ c (Proc.devRef .tc main_arg4) := W4_of_ne m ρ c main_arg4 (by decide)
    _ = m ((c : Thread nD τ).loc main_arg4) :=
  calc W3 m ρ c (Proc.devRef .tc main_arg4)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl
theorem entry1_bias (c : Dev nD) : W5 m ρ c (Proc.devRef .tc main_v43) = shapeCast S1x128 (m ((c : Thread nD τ).loc main_arg5)) shapeCasts_S128_S1x128 := by
  have e : W4 m ρ c (Proc.devRef .tc main_arg5) = m ((c : Thread nD τ).loc main_arg5) :=
    (W4_of_ne m ρ c main_arg5 (by decide)).trans (
  calc W3 m ρ c (Proc.devRef .tc main_arg5)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl)
  show StableHlo.after hostOps1 (W4 m ρ c) (Proc.devRef .tc main_v43) = _
  after_results
  rw [e]
  rfl
theorem entry1_wroot (c : Dev nD) : W5 m ρ c (Proc.devRef .tc main_arg6) = m ((c : Thread nD τ).loc main_arg6) :=
  calc W5 m ρ c (Proc.devRef .tc main_arg6)
    _ = W4 m ρ c (Proc.devRef .tc main_arg6) := by host_keeps hostOps1
    _ = W3 m ρ c (Proc.devRef .tc main_arg6) := W4_of_ne m ρ c main_arg6 (by decide)
    _ = m ((c : Thread nD τ).loc main_arg6) :=
  calc W3 m ρ c (Proc.devRef .tc main_arg6)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-! ## Region 2: the two heads' operands, over what region 1 left in `main_v44` -/

/-- The two heads' arguments: no host operation and neither earlier region writes them. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keeps hostOps1
    _ = W3 m ρ c (Proc.devRef .tc main_arg11) := W4_of_ne m ρ c main_arg11 (by decide)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keeps hostOps1
    _ = W3 m ρ c (Proc.devRef .tc main_arg12) := W4_of_ne m ρ c main_arg12 (by decide)
    _ = W2 m ρ c (Proc.devRef .tc main_arg12) := by host_keeps hostOps0_2
    _ = W1 m ρ c (Proc.devRef .tc main_arg12) := by host_keeps hostOps0_1
    _ = W0 m ρ c (Proc.devRef .tc main_arg12) := by host_keeps hostOps0
    _ = m ((c : Thread nD τ).loc main_arg12) := rfl

/-- The aggregated second hidden features. -/
theorem entry2_agg (c : Dev nD) : W7 m ρ c (Proc.devRef .tc main_v57) = Cert.Net.meanAgg128 (W6 m ρ c (Proc.devRef .tc main_v44)) (m ((c : Thread nD τ).loc main_arg13)) := by
  show StableHlo.after hostOps2 (W6 m ρ c) (Proc.devRef .tc main_v57) = _
  after_results_simp
  rw [W6_src, W6_dst, W6_inv]
  rfl
/-- The second hidden features, as region 1 left them. -/
theorem entry2_x (c : Dev nD) : W7 m ρ c (Proc.devRef .tc main_v44) = W6 m ρ c (Proc.devRef .tc main_v44) := by
  host_keeps hostOps2
theorem entry2_mu_wrel (c : Dev nD) : W7 m ρ c (Proc.devRef .tc main_arg7) = m ((c : Thread nD τ).loc main_arg7) :=
  calc W7 m ρ c (Proc.devRef .tc main_arg7)
    _ = W6 m ρ c (Proc.devRef .tc main_arg7) := by host_keeps hostOps2
    _ = m ((c : Thread nD τ).loc main_arg7) := W6_main_arg7 m ρ c
theorem entry2_mu_bias (c : Dev nD) : W7 m ρ c (Proc.devRef .tc main_v58) = shapeCast S1x16 (m ((c : Thread nD τ).loc main_arg8)) shapeCasts_S16_S1x16 := by
  show StableHlo.after hostOps2 (W6 m ρ c) (Proc.devRef .tc main_v58) = _
  after_results
  rw [W6_main_arg8]
  rfl
theorem entry2_mu_wroot (c : Dev nD) : W7 m ρ c (Proc.devRef .tc main_arg9) = m ((c : Thread nD τ).loc main_arg9) :=
  calc W7 m ρ c (Proc.devRef .tc main_arg9)
    _ = W6 m ρ c (Proc.devRef .tc main_arg9) := by host_keeps hostOps2
    _ = m ((c : Thread nD τ).loc main_arg9) := W6_main_arg9 m ρ c
theorem entry2_ls_wrel (c : Dev nD) : W7 m ρ c (Proc.devRef .tc main_arg10) = m ((c : Thread nD τ).loc main_arg10) :=
  calc W7 m ρ c (Proc.devRef .tc main_arg10)
    _ = W6 m ρ c (Proc.devRef .tc main_arg10) := by host_keeps hostOps2
    _ = m ((c : Thread nD τ).loc main_arg10) := W6_main_arg10 m ρ c
theorem entry2_ls_bias (c : Dev nD) : W7 m ρ c (Proc.devRef .tc main_v59) = shapeCast S1x16 (m ((c : Thread nD τ).loc main_arg11)) shapeCasts_S16_S1x16 := by
  show StableHlo.after hostOps2 (W6 m ρ c) (Proc.devRef .tc main_v59) = _
  after_results
  rw [W6_main_arg11]
  rfl
theorem entry2_ls_wroot (c : Dev nD) : W7 m ρ c (Proc.devRef .tc main_arg12) = m ((c : Thread nD τ).loc main_arg12) :=
  calc W7 m ρ c (Proc.devRef .tc main_arg12)
    _ = W6 m ρ c (Proc.devRef .tc main_arg12) := by host_keeps hostOps2
    _ = m ((c : Thread nD τ).loc main_arg12) := W6_main_arg12 m ρ c

end Cert.KernelIdeal.Entry

end
-- ==== Proof.NetAt1.lean ====
/-
  The first layer read at an index.  At the ideal values the host's matrix product is the plain sum over the
  contracted axis, a broadcast reads its operand at the coordinate it keeps, and the clamp is the maximum with
  zero; so entry (r, q) of the layer is
      max ((∑ k, a (r, k) · W_rel (k, q) + b q) + ∑ k, x (r, k) · W_root (k, q)) 0.
-/
import proofs.«130011_j27066883899544_1_alg».proof.Proof.Net
import Idealize.ShloMosaic.Lib.Pipeline.Value
import Idealize.ShloMosaic.Lib.ValueIdx
import Idealize.ShloMosaic.PureOps.Ideal.Laws

noncomputable section

namespace Cert.Net

open Cert.ReferenceIdeal Cert.ReferenceIdeal.Gen Idealize.ShloMosaic Idealize.ShloMosaic.TcCoe

/-! ## The product's operand indices, axis by axis -/

theorem conv1_lhs_0 (i : S50000x256.Idx) (q : dot_S50000x64_S64x256_S50000x256_1_0_0_1_n_n.contr.Idx) :
    (dot_S50000x64_S64x256_S50000x256_1_0_0_1_n_n.lhsIdx i q 0).val = (i 0).val := by
  unfold DotDims.lhsIdx
  rw [dif_neg (show ¬(0 : Fin S50000x64.rank) ∈ dot_S50000x64_S64x256_S50000x256_1_0_0_1_n_n.lhsBatch by decide), dif_pos (show (0 : Fin S50000x64.rank) ∈ dot_S50000x64_S64x256_S50000x256_1_0_0_1_n_n.lhsNonContracting by decide)]
  rfl
theorem conv1_lhs_1 (i : S50000x256.Idx) (q : dot_S50000x64_S64x256_S50000x256_1_0_0_1_n_n.contr.Idx) :
    (dot_S50000x64_S64x256_S50000x256_1_0_0_1_n_n.lhsIdx i q 1).val = (q ⟨0, by decide⟩).val :=
  dot_S50000x64_S64x256_S50000x256_1_0_0_1_n_n.lhsIdx_val_of_single rfl i q
theorem conv1_rhs_0 (i : S50000x256.Idx) (q : dot_S50000x64_S64x256_S50000x256_1_0_0_1_n_n.contr.Idx) :
    (dot_S50000x64_S64x256_S50000x256_1_0_0_1_n_n.rhsIdx i q 0).val = (q ⟨0, by decide⟩).val :=
  dot_S50000x64_S64x256_S50000x256_1_0_0_1_n_n.rhsIdx_val_of_single rfl i q
theorem conv1_rhs_1 (i : S50000x256.Idx) (q : dot_S50000x64_S64x256_S50000x256_1_0_0_1_n_n.contr.Idx) :
    (dot_S50000x64_S64x256_S50000x256_1_0_0_1_n_n.rhsIdx i q 1).val = (i 1).val := by
  unfold DotDims.rhsIdx
  rw [dif_neg (show ¬(1 : Fin S64x256.rank) ∈ dot_S50000x64_S64x256_S50000x256_1_0_0_1_n_n.rhsBatch by decide), dif_pos (show (1 : Fin S64x256.rank) ∈ dot_S50000x64_S64x256_S50000x256_1_0_0_1_n_n.rhsNonContracting by decide)]
  rfl

/-- Row `i 0` of a feature array at column `k`. -/
abbrev conv1_row (i : S50000x256.Idx) (k : Fin 64) : S50000x64.Idx := fun a => match a with
  | ⟨0, _⟩ => ⟨(i 0).val, (i 0).isLt⟩
  | ⟨1, _⟩ => ⟨k.val, k.isLt⟩
/-- Row `k` of a weight matrix at column `i 1`. -/
abbrev conv1_col (i : S50000x256.Idx) (k : Fin 64) : S64x256.Idx := fun a => match a with
  | ⟨0, _⟩ => ⟨k.val, k.isLt⟩
  | ⟨1, _⟩ => ⟨(i 1).val, (i 1).isLt⟩
/-- The bias entry of column `i 1`. -/
abbrev conv1_bias (i : S50000x256.Idx) : S256.Idx := fun a => match a with
  | ⟨0, _⟩ => ⟨(i 1).val, (i 1).isLt⟩

/-- The host's product of a feature array with a weight matrix, at an index: the sum over the 64 contracted columns. -/
theorem conv1_dot_apply (a : FVec Ideal S50000x64 .f32) (w : FVec Ideal S64x256 .f32) (i : S50000x256.Idx) :
    Host.dotGeneral (F := Ideal) dot_S50000x64_S64x256_S50000x256_1_0_0_1_n_n none a w i = ∑ k : Fin 64, a (conv1_row i k) * w (conv1_col i k) := by
  simp only [Host.dotGeneral]
  rw [Ideal.dotGeneral_apply, ← Equiv.sum_comp (ValueIdx.contrEquiv1 dot_S50000x64_S64x256_S50000x256_1_0_0_1_n_n 64 rfl rfl).symm]
  refine Finset.sum_congr rfl fun k _ => ?_
  have hk := ValueIdx.contrEquiv1_symm_val dot_S50000x64_S64x256_S50000x256_1_0_0_1_n_n 64 rfl rfl k
  have el : dot_S50000x64_S64x256_S50000x256_1_0_0_1_n_n.lhsIdx i ((ValueIdx.contrEquiv1 dot_S50000x64_S64x256_S50000x256_1_0_0_1_n_n 64 rfl rfl).symm k) = conv1_row i k := funext fun a => Fin.ext (by
    match a with
    | ⟨0, _⟩ => exact conv1_lhs_0 _ _
    | ⟨1, _⟩ => exact (conv1_lhs_1 _ _).trans hk)
  have er : dot_S50000x64_S64x256_S50000x256_1_0_0_1_n_n.rhsIdx i ((ValueIdx.contrEquiv1 dot_S50000x64_S64x256_S50000x256_1_0_0_1_n_n 64 rfl rfl).symm k) = conv1_col i k := funext fun a => Fin.ext (by
    match a with
    | ⟨0, _⟩ => exact (conv1_rhs_0 _ _).trans hk
    | ⟨1, _⟩ => exact conv1_rhs_1 _ _)
  rw [el, er]

/-- The bias, broadcast along the rows, at an index: its entry of that column. -/
theorem conv1_bias_apply (b : Arr Ideal S256 .f32) (i : S50000x256.Idx) :
    broadcastInDim S50000x256 ![0, 1] bcast_S1x256_S50000x256_0_1 (broadcastInDim S1x256 ![1] bcast_S256_S1x256_1 b) i = b (conv1_bias i) := by
  have h1 : ∀ (y : Arr Ideal S1x256 .f32), broadcastInDim S50000x256 ![0, 1] bcast_S1x256_S50000x256_0_1 y i
      = y (fun a => match a with | ⟨0, _⟩ => ⟨0, Nat.one_pos⟩ | ⟨1, _⟩ => ⟨(i 1).val, (i 1).isLt⟩) := fun y =>
    broadcastInDim_apply _ bcast_S1x256_S50000x256_0_1 y i _ (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)])
  rw [h1]
  exact broadcastInDim_apply _ bcast_S256_S1x256_1 b _ (conv1_bias i) (fun a => match a with
    | ⟨0, _⟩ => by show (i 1).val = if (256 : Nat) = 1 then 0 else (i 1).val; rw [if_neg (by decide)])

/-- The first layer at an index. -/
theorem conv1_apply (a x : Arr Ideal S50000x64 .f32) (wrel : Arr Ideal S64x256 .f32) (b : Arr Ideal S256 .f32) (wroot : Arr Ideal S64x256 .f32) (i : S50000x256.Idx) :
    conv1 (F := Ideal) a x wrel b wroot i
      = max (((∑ k : Fin 64, a (conv1_row i k) * wrel (conv1_col i k)) + b (conv1_bias i)) + ∑ k : Fin 64, x (conv1_row i k) * wroot (conv1_col i k)) 0 := by
  unfold conv1
  show max ((Host.dotGeneral (F := Ideal) (φ₁ := .f32) (φ₂ := .f32) dot_S50000x64_S64x256_S50000x256_1_0_0_1_n_n none a wrel i
        + broadcastInDim S50000x256 ![0, 1] bcast_S1x256_S50000x256_0_1 (broadcastInDim S1x256 ![1] bcast_S256_S1x256_1 b) i)
      + Host.dotGeneral (F := Ideal) (φ₁ := .f32) (φ₂ := .f32) dot_S50000x64_S64x256_S50000x256_1_0_0_1_n_n none x wroot i) (Ideal.ofBits .f32 0x00000000#32) = _
  rw [conv1_dot_apply, conv1_dot_apply, conv1_bias_apply, Ideal.ofBits_zero_f32]

end Cert.Net

end
-- ==== Proof.Conv1.lean ====
/-
  Region 0 leaves the first layer in its output array.

  At grid point `t` the body multiplies rows `2000 t … 2000 t + 1999` of the aggregated features and of the node
  features by the two (whole) weight matrices, adds the two products and the bias row and clamps at zero.  A row of
  a matrix product depends only on that row of the left factor, so the block the point writes back is rows
  `2000 t …` of the layer computed on the whole arrays; the 25 blocks tile the 50000 rows, so the array ends
  holding the layer.  The kernel adds the bias last and the reference second: on the extended reals the two
  groupings of the three summands are equal (`add_right_comm`).
-/
import proofs.«130011_j27066883899544_1_alg».proof.Proof.Gen.KernelIdeal.Frame
import proofs.«130011_j27066883899544_1_alg».proof.Proof.NetAt1
import Idealize.ShloMosaic.Lib.Pipeline.Value
import Idealize.ShloMosaic.Lib.ValueIdx
import Idealize.ShloMosaic.PureOps.Ideal.Laws

set_option maxRecDepth 16384

noncomputable section

namespace Cert.KernelIdeal.Conv1

open Cert.KernelIdeal Cert.KernelIdeal.Gen Idealize.ShloMosaic Idealize.ShloMosaic.TcCoe Idealize.SL.Sem
open Idealize.ShloMosaic.Pipeline (Dat)

/-! ## The block's two products and its bias row, at an index -/

theorem lhs_0 (j : S2000x256.Idx) (q : dot_S2000x64_S64x256_S2000x256_1_0_0_1_n_n.contr.Idx) : (dot_S2000x64_S64x256_S2000x256_1_0_0_1_n_n.lhsIdx j q 0).val = (j 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhs_1 (j : S2000x256.Idx) (q : dot_S2000x64_S64x256_S2000x256_1_0_0_1_n_n.contr.Idx) : (dot_S2000x64_S64x256_S2000x256_1_0_0_1_n_n.lhsIdx j q 1).val = (q ⟨0, by decide⟩).val :=
  dot_S2000x64_S64x256_S2000x256_1_0_0_1_n_n.lhsIdx_val_of_single rfl j q
theorem rhs_0 (j : S2000x256.Idx) (q : dot_S2000x64_S64x256_S2000x256_1_0_0_1_n_n.contr.Idx) : (dot_S2000x64_S64x256_S2000x256_1_0_0_1_n_n.rhsIdx j q 0).val = (q ⟨0, by decide⟩).val :=
  dot_S2000x64_S64x256_S2000x256_1_0_0_1_n_n.rhsIdx_val_of_single rfl j q
theorem rhs_1 (j : S2000x256.Idx) (q : dot_S2000x64_S64x256_S2000x256_1_0_0_1_n_n.contr.Idx) : (dot_S2000x64_S64x256_S2000x256_1_0_0_1_n_n.rhsIdx j q 1).val = (j 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- Row `j 0` of a block of features at column `k`. -/
abbrev row (j : S2000x256.Idx) (k : Fin 64) : S2000x64.Idx := fun a => match a with
  | ⟨0, _⟩ => ⟨(j 0).val, (j 0).isLt⟩
  | ⟨1, _⟩ => ⟨k.val, k.isLt⟩
/-- Row `k` of a weight matrix at column `j 1`. -/
abbrev col (j : S2000x256.Idx) (k : Fin 64) : S64x256.Idx := fun a => match a with
  | ⟨0, _⟩ => ⟨k.val, k.isLt⟩
  | ⟨1, _⟩ => ⟨(j 1).val, (j 1).isLt⟩
/-- The bias row's entry of column `j 1`. -/
abbrev biasAt (j : S2000x256.Idx) : S1x256.Idx := fun a => match a with
  | ⟨0, _⟩ => ⟨0, Nat.one_pos⟩
  | ⟨1, _⟩ => ⟨(j 1).val, (j 1).isLt⟩

/-- A block's product into the zero accumulator, at an index: the sum over the 64 contracted columns. -/
theorem blockDot_apply {φ₁ φ₂ : FTy} (l : FVec Ideal S2000x64 φ₁) (r : FVec Ideal S64x256 φ₂) (j : S2000x256.Idx) :
    matmul dot_S2000x64_S64x256_S2000x256_1_0_0_1_n_n none l r (constant S2000x256 .f32 0x00000000#32) j = ∑ k : Fin 64, l (row j k) * r (col j k) := by
  simp only [matmul]
  rw [Ideal.matmul_constant_zero_apply, ← Equiv.sum_comp (ValueIdx.contrEquiv1 dot_S2000x64_S64x256_S2000x256_1_0_0_1_n_n 64 rfl rfl).symm]
  refine Finset.sum_congr rfl fun k _ => ?_
  have hk := ValueIdx.contrEquiv1_symm_val dot_S2000x64_S64x256_S2000x256_1_0_0_1_n_n 64 rfl rfl k
  have el : dot_S2000x64_S64x256_S2000x256_1_0_0_1_n_n.lhsIdx j ((ValueIdx.contrEquiv1 dot_S2000x64_S64x256_S2000x256_1_0_0_1_n_n 64 rfl rfl).symm k) = row j k := funext fun a => Fin.ext (by
    match a with
    | ⟨0, _⟩ => exact lhs_0 _ _
    | ⟨1, _⟩ => exact (lhs_1 _ _).trans hk)
  have er : dot_S2000x64_S64x256_S2000x256_1_0_0_1_n_n.rhsIdx j ((ValueIdx.contrEquiv1 dot_S2000x64_S64x256_S2000x256_1_0_0_1_n_n 64 rfl rfl).symm k) = col j k := funext fun a => Fin.ext (by
    match a with
    | ⟨0, _⟩ => exact (rhs_0 _ _).trans hk
    | ⟨1, _⟩ => exact rhs_1 _ _)
  rw [el, er]

/-- The body's stored value at an index of the block: the two row-by-column sums, the bias entry, the clamp. -/
theorem pay_apply (x0 x1 : Vec Ideal S2000x64 .f32) (x2 x4 : Vec Ideal S64x256 .f32) (x3 : Vec Ideal S1x256 .f32) (j : S2000x256.Idx) :
    k0_pay1 (F := Ideal) x0 x1 x2 x4 x3 j
      = max (((∑ k : Fin 64, x0 (row j k) * x2 (col j k)) + ∑ k : Fin 64, x1 (row j k) * x4 (col j k)) + x3 (biasAt j)) 0 := by
  unfold k0_pay1
  simp only [shapeCast_self]
  show max ((matmul (F := Ideal) dot_S2000x64_S64x256_S2000x256_1_0_0_1_n_n none (truncf .bf16 x0 bitsLt_bf16_f32) (truncf .bf16 x2 bitsLt_bf16_f32) (constant S2000x256 .f32 0x00000000#32) j
      + matmul (F := Ideal) dot_S2000x64_S64x256_S2000x256_1_0_0_1_n_n none (truncf .bf16 x1 bitsLt_bf16_f32) (truncf .bf16 x4 bitsLt_bf16_f32) (constant S2000x256 .f32 0x00000000#32) j)
      + broadcastTo S2000x256 x3 broadcasts_S1x256_S2000x256 j) (Ideal.ofBits .f32 0x00000000#32) = _
  rw [blockDot_apply, blockDot_apply, Ideal.ofBits_zero_f32,
    broadcastTo_apply x3 broadcasts_S1x256_S2000x256 j (biasAt j) (fun a => match a with
      | ⟨0, _⟩ => by show 0 = if (1 : Nat) = 1 then 0 else _; rw [if_pos rfl]
      | ⟨1, _⟩ => by show (j 1).val = if (256 : Nat) = 1 then 0 else _; rw [if_neg (by decide)]; rfl)]
  rfl

/-! ## What a grid point writes back -/

theorem hz : (![0, 0] : Fin 2 → Nat) = fun _ => 0 := funext fun a => by fin_cases a <;> rfl

/-- The printed index maps over the 25 grid points: the two feature windows move with the output window along the
    rows, the weights and the bias stay at block zero, and the output's block index runs over the 25 row blocks. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every one of the 25 row blocks is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

variable (V : (c : Dev nD) → (b : Ref sig .tc) → Buf (Elt Ideal) ((c : Thread nD τ).loc b))

/-- What point `t` writes back is block `t` of the first layer of the arrays the region finds, the bias array being
    the bias `b` as one row. -/
theorem flushed_eq (c : Dev nD) (b : Cert.Net.Arr Ideal S256 .f32)
    (hb : V c main_v28 = shapeCast S1x256 b shapeCasts_S256_S1x256) (t : Fin cfg0.N) :
    (dat0 (F := Ideal) V c).flushed 5 t
      = ((cfg0.win 5).blk t).view.read (Elt Ideal) (Cert.Net.conv1 (V c main_v27) (V c main_arg0) (V c main_arg1) b (V c main_arg3)) := by
  show (cfg0.win 5).cut (grid0.coords t) ((dat0 (F := Ideal) V c).after 5 t) = _
  rw [after0_5]
  unfold out0_5
  rw [View.canon_unit_zero hz]
  simp only [View.ld_unit_zero (S := S2000x64) hz, View.ld_unit_zero (S := S64x256) hz, View.ld_unit_zero (S := S1x256) hz]
  obtain ⟨e00, e01, e10, e11, e20, e21, e30, e31, e40, e41, e5b, e51⟩ := idx_facts t
  funext j
  refine (pay_apply (iblk0 V c 0 t) (iblk0 V c 1 t) (iblk0 V c 2 t) (iblk0 V c 4 t) (iblk0 V c 3 t) j).trans ?_
  show _ = Cert.Net.conv1 (V c main_v27) (V c main_arg0) (V c main_arg1) b (V c main_arg3) (((cfg0.win 5).blk t).view.emb j)
  rw [Cert.Net.conv1_apply]
  -- a row of a feature block is that row of the array, 2000 t rows down
  have hrow : ∀ k : Fin 64, ((cfg0.win 0).blk t).view.emb (row j k) = Cert.Net.conv1_row (((cfg0.win 5).blk t).view.emb j) k := fun k => by
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 64 + 1 * k.val = k.val; omega
  have hrow' : ∀ k : Fin 64, ((cfg0.win 1).blk t).view.emb (row j k) = Cert.Net.conv1_row (((cfg0.win 5).blk t).view.emb j) k := fun k => by
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 64 + 1 * k.val = k.val; omega
  -- the weights' one block is the whole matrix
  have hcol : ∀ k : Fin 64, ((cfg0.win 2).blk t).view.emb (col j k) = Cert.Net.conv1_col (((cfg0.win 5).blk t).view.emb j) k := fun k => by
    funext a; apply Fin.ext
    match a with
    | ⟨0, _⟩ => show win0_2.index t (0 : Fin 2) * 64 + 1 * k.val = k.val; omega
    | ⟨1, _⟩ => show win0_2.index t (1 : Fin 2) * 256 + 1 * (j 1).val = win0_5.index t (1 : Fin 2) * 256 + 1 * (j 1).val; omega
  have hcol' : ∀ k : Fin 64, ((cfg0.win 4).blk t).view.emb (col j k) = Cert.Net.conv1_col (((cfg0.win 5).blk t).view.emb j) k := fun k => by
    funext a; apply Fin.ext
    match a with
    | ⟨0, _⟩ => show win0_4.index t (0 : Fin 2) * 64 + 1 * k.val = k.val; omega
    | ⟨1, _⟩ => show win0_4.index t (1 : Fin 2) * 256 + 1 * (j 1).val = win0_5.index t (1 : Fin 2) * 256 + 1 * (j 1).val; omega
  -- the bias row's entry is the bias's
  have hbias : iblk0 V c 3 t (biasAt j) = b (Cert.Net.conv1_bias (((cfg0.win 5).blk t).view.emb j)) := by
    show V c main_v28 (((cfg0.win 3).blk t).view.emb (biasAt j)) = _
    rw [hb, shapeCast_addUnit_apply]
    refine congrArg b (funext fun a => Fin.ext ?_)
    match a with
    | ⟨0, _⟩ => show win0_3.index t (1 : Fin 2) * 256 + 1 * (j 1).val = win0_5.index t (1 : Fin 2) * 256 + 1 * (j 1).val; omega
  have hA : ∀ k : Fin 64, iblk0 V c 0 t (row j k) = V c main_v27 (Cert.Net.conv1_row (((cfg0.win 5).blk t).view.emb j) k) := fun k =>
    congrArg (V c main_v27) (hrow k)
  have hX : ∀ k : Fin 64, iblk0 V c 1 t (row j k) = V c main_arg0 (Cert.Net.conv1_row (((cfg0.win 5).blk t).view.emb j) k) := fun k =>
    congrArg (V c main_arg0) (hrow' k)
  have hWr : ∀ k : Fin 64, iblk0 V c 2 t (col j k) = V c main_arg1 (Cert.Net.conv1_col (((cfg0.win 5).blk t).view.emb j) k) := fun k =>
    congrArg (V c main_arg1) (hcol k)
  have hWo : ∀ k : Fin 64, iblk0 V c 4 t (col j k) = V c main_arg3 (Cert.Net.conv1_col (((cfg0.win 5).blk t).view.emb j) k) := fun k =>
    congrArg (V c main_arg3) (hcol' k)
  rw [add_right_comm]
  refine congrArg (fun z => max z 0) (congrArg₂ (· + ·) (congrArg₂ (· + ·) ?_ hbias) ?_)
  · exact Finset.sum_congr rfl fun k _ => by rw [hA k, hWr k]
  · exact Finset.sum_congr rfl fun k _ => by rw [hX k, hWo k]

/-! ## The 25 blocks tile the array -/

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v29).slice (win0_5.rect t)).set ↔ _
  rw [View.set_slice_whole, Rect.mem_set_unit]
  exact Iff.rfl

/-- Row `r` lies in the block of the point whose row block is `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-! ## The array the region leaves -/

/-- After the region its output array holds the first layer of the arrays it found. -/
theorem array_eq (c : Dev nD) (b : Cert.Net.Arr Ideal S256 .f32)
    (hb : V c main_v28 = shapeCast S1x256 b shapeCasts_S256_S1x256) :
    (dat0 (F := Ideal) V c).arrAt 5 cfg0.N = Cert.Net.conv1 (V c main_v27) (V c main_arg0) (V c main_arg1) b (V c main_arg3) :=
  (dat0 (F := Ideal) V c).arrAt_eq_of_cover 5 _ (fun t _ => flushed_eq V c b hb t) cover

end Cert.KernelIdeal.Conv1

end
-- ==== Proof.NetAt2.lean ====
/-
  The second layer read at an index.  At the ideal values the host's matrix product is the plain sum over the
  contracted axis, a broadcast reads its operand at the coordinate it keeps, and the clamp is the maximum with
  zero; so entry (r, q) of the layer is
      max ((∑ k, a (r, k) · W_rel (k, q) + b q) + ∑ k, x (r, k) · W_root (k, q)) 0.
-/
import proofs.«130011_j27066883899544_1_alg».proof.Proof.Net
import Idealize.ShloMosaic.Lib.Pipeline.Value
import Idealize.ShloMosaic.Lib.ValueIdx
import Idealize.ShloMosaic.PureOps.Ideal.Laws

noncomputable section

namespace Cert.Net

open Cert.ReferenceIdeal Cert.ReferenceIdeal.Gen Idealize.ShloMosaic Idealize.ShloMosaic.TcCoe

/-! ## The product's operand indices, axis by axis -/

theorem conv2_lhs_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem conv2_lhs_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem conv2_rhs_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem conv2_rhs_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Row `i 0` of a feature array at column `k`. -/
abbrev conv2_row (i : S50000x128.Idx) (k : Fin 256) : S50000x256.Idx := fun a => match a with
  | ⟨0, _⟩ => ⟨(i 0).val, (i 0).isLt⟩
  | ⟨1, _⟩ => ⟨k.val, k.isLt⟩
/-- Row `k` of a weight matrix at column `i 1`. -/
abbrev conv2_col (i : S50000x128.Idx) (k : Fin 256) : S256x128.Idx := fun a => match a with
  | ⟨0, _⟩ => ⟨k.val, k.isLt⟩
  | ⟨1, _⟩ => ⟨(i 1).val, (i 1).isLt⟩
/-- The bias entry of column `i 1`. -/
abbrev conv2_bias (i : S50000x128.Idx) : S128.Idx := fun a => match a with
  | ⟨0, _⟩ => ⟨(i 1).val, (i 1).isLt⟩

/-- The host's product of a feature array with a weight matrix, at an index: the sum over the 256 contracted columns. -/
theorem conv2_dot_apply (a : FVec Ideal S50000x256 .f32) (w : FVec Ideal S256x128 .f32) (i : S50000x128.Idx) :
    Host.dotGeneral (F := Ideal) dot_S50000x256_S256x128_S50000x128_1_0_0_1_n_n none a w i = ∑ k : Fin 256, a (conv2_row i k) * w (conv2_col i k) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = conv2_row i k := funext fun a => Fin.ext (by
    match a with
    | ⟨0, _⟩ => exact conv2_lhs_0 _ _
    | ⟨1, _⟩ => exact (conv2_lhs_1 _ _).trans hk)
  have er : dot_S50000x256_S256x128_S50000x128_1_0_0_1_n_n.rhsIdx i ((ValueIdx.contrEquiv1 dot_S50000x256_S256x128_S50000x128_1_0_0_1_n_n 256 rfl rfl).symm k) = conv2_col i k := funext fun a => Fin.ext (by
    match a with
    | ⟨0, _⟩ => exact (conv2_rhs_0 _ _).trans hk
    | ⟨1, _⟩ => exact conv2_rhs_1 _ _)
  rw [el, er]

/-- The bias, broadcast along the rows, at an index: its entry of that column. -/
theorem conv2_bias_apply (b : Arr Ideal S128 .f32) (i : S50000x128.Idx) :
    broadcastInDim S50000x128 ![0, 1] bcast_S1x128_S50000x128_0_1 (broadcastInDim S1x128 ![1] bcast_S128_S1x128_1 b) i = b (conv2_bias i) := by
  have h1 : ∀ (y : Arr Ideal S1x128 .f32), broadcastInDim S50000x128 ![0, 1] bcast_S1x128_S50000x128_0_1 y i
      = y (fun a => match a with | ⟨0, _⟩ => ⟨0, Nat.one_pos⟩ | ⟨1, _⟩ => ⟨(i 1).val, (i 1).isLt⟩) := fun y =>
    broadcastInDim_apply _ bcast_S1x128_S50000x128_0_1 y i _ (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h1]
  exact broadcastInDim_apply _ bcast_S128_S1x128_1 b _ (conv2_bias i) (fun a => match a with
    | ⟨0, _⟩ => by show (i 1).val = if (128 : Nat) = 1 then 0 else (i 1).val; rw [if_neg (by decide)])

/-- The second layer at an index. -/
theorem conv2_apply (a x : Arr Ideal S50000x256 .f32) (wrel : Arr Ideal S256x128 .f32) (b : Arr Ideal S128 .f32) (wroot : Arr Ideal S256x128 .f32) (i : S50000x128.Idx) :
    conv2 (F := Ideal) a x wrel b wroot i
      = max (((∑ k : Fin 256, a (conv2_row i k) * wrel (conv2_col i k)) + b (conv2_bias i)) + ∑ k : Fin 256, x (conv2_row i k) * wroot (conv2_col i k)) 0 := by
  unfold conv2
  show max ((Host.dotGeneral (F := Ideal) (φ₁ := .f32) (φ₂ := .f32) dot_S50000x256_S256x128_S50000x128_1_0_0_1_n_n none a wrel i
        + broadcastInDim S50000x128 ![0, 1] bcast_S1x128_S50000x128_0_1 (broadcastInDim S1x128 ![1] bcast_S128_S1x128_1 b) i)
      + Host.dotGeneral (F := Ideal) (φ₁ := .f32) (φ₂ := .f32) dot_S50000x256_S256x128_S50000x128_1_0_0_1_n_n none x wroot i) (Ideal.ofBits .f32 0x00000000#32) = _
  rw [conv2_dot_apply, conv2_dot_apply, conv2_bias_apply, Ideal.ofBits_zero_f32]

end Cert.Net

end
-- ==== Proof.Conv2.lean ====
/-
  Region 1 leaves the second layer in its output array.

  At grid point `t` the body multiplies rows `2000 t … 2000 t + 1999` of the aggregated features and of the node
  features by the two (whole) weight matrices, adds the two products and the bias row and clamps at zero.  A row of
  a matrix product depends only on that row of the left factor, so the block the point writes back is rows
  `2000 t …` of the layer computed on the whole arrays; the 25 blocks tile the 50000 rows, so the array ends
  holding the layer.  The kernel adds the bias last and the reference second: on the extended reals the two
  groupings of the three summands are equal (`add_right_comm`).
-/
import proofs.«130011_j27066883899544_1_alg».proof.Proof.Gen.KernelIdeal.Frame
import proofs.«130011_j27066883899544_1_alg».proof.Proof.NetAt2
import Idealize.ShloMosaic.Lib.Pipeline.Value
import Idealize.ShloMosaic.Lib.ValueIdx
import Idealize.ShloMosaic.PureOps.Ideal.Laws

set_option maxRecDepth 16384

noncomputable section

namespace Cert.KernelIdeal.Conv2

open Cert.KernelIdeal Cert.KernelIdeal.Gen Idealize.ShloMosaic Idealize.ShloMosaic.TcCoe Idealize.SL.Sem
open Idealize.ShloMosaic.Pipeline (Dat)

/-! ## The block's two products and its bias row, at an index -/

theorem lhs_0 (j : S2000x128.Idx) (q : dot_S2000x256_S256x128_S2000x128_1_0_0_1_n_n.contr.Idx) : (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_1 (j : S2000x128.Idx) (q : dot_S2000x256_S256x128_S2000x128_1_0_0_1_n_n.contr.Idx) : (dot_S2000x256_S256x128_S2000x128_1_0_0_1_n_n.lhsIdx j q 1).val = (q ⟨0, by decide⟩).val :=
  dot_S2000x256_S256x128_S2000x128_1_0_0_1_n_n.lhsIdx_val_of_single rfl j q
theorem rhs_0 (j : S2000x128.Idx) (q : dot_S2000x256_S256x128_S2000x128_1_0_0_1_n_n.contr.Idx) : (dot_S2000x256_S256x128_S2000x128_1_0_0_1_n_n.rhsIdx j q 0).val = (q ⟨0, by decide⟩).val :=
  dot_S2000x256_S256x128_S2000x128_1_0_0_1_n_n.rhsIdx_val_of_single rfl j q
theorem rhs_1 (j : S2000x128.Idx) (q : dot_S2000x256_S256x128_S2000x128_1_0_0_1_n_n.contr.Idx) : (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Row `j 0` of a block of features at column `k`. -/
abbrev row (j : S2000x128.Idx) (k : Fin 256) : S2000x256.Idx := fun a => match a with
  | ⟨0, _⟩ => ⟨(j 0).val, (j 0).isLt⟩
  | ⟨1, _⟩ => ⟨k.val, k.isLt⟩
/-- Row `k` of a weight matrix at column `j 1`. -/
abbrev col (j : S2000x128.Idx) (k : Fin 256) : S256x128.Idx := fun a => match a with
  | ⟨0, _⟩ => ⟨k.val, k.isLt⟩
  | ⟨1, _⟩ => ⟨(j 1).val, (j 1).isLt⟩
/-- The bias row's entry of column `j 1`. -/
abbrev biasAt (j : S2000x128.Idx) : S1x128.Idx := fun a => match a with
  | ⟨0, _⟩ => ⟨0, Nat.one_pos⟩
  | ⟨1, _⟩ => ⟨(j 1).val, (j 1).isLt⟩

/-- A block's product into the zero accumulator, at an index: the sum over the 256 contracted columns. -/
theorem blockDot_apply {φ₁ φ₂ : FTy} (l : FVec Ideal S2000x256 φ₁) (r : FVec Ideal S256x128 φ₂) (j : S2000x128.Idx) :
    matmul dot_S2000x256_S256x128_S2000x128_1_0_0_1_n_n none l r (constant S2000x128 .f32 0x00000000#32) j = ∑ k : Fin 256, l (row j k) * r (col j k) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = row j k := funext fun a => Fin.ext (by
    match a with
    | ⟨0, _⟩ => exact lhs_0 _ _
    | ⟨1, _⟩ => exact (lhs_1 _ _).trans hk)
  have er : dot_S2000x256_S256x128_S2000x128_1_0_0_1_n_n.rhsIdx j ((ValueIdx.contrEquiv1 dot_S2000x256_S256x128_S2000x128_1_0_0_1_n_n 256 rfl rfl).symm k) = col j k := funext fun a => Fin.ext (by
    match a with
    | ⟨0, _⟩ => exact (rhs_0 _ _).trans hk
    | ⟨1, _⟩ => exact rhs_1 _ _)
  rw [el, er]

/-- The body's stored value at an index of the block: the two row-by-column sums, the bias entry, the clamp. -/
theorem pay_apply (x0 x1 : Vec Ideal S2000x256 .f32) (x2 x4 : Vec Ideal S256x128 .f32) (x3 : Vec Ideal S1x128 .f32) (j : S2000x128.Idx) :
    k1_pay1 (F := Ideal) x0 x1 x2 x4 x3 j
      = max (((∑ k : Fin 256, x0 (row j k) * x2 (col j k)) + ∑ k : Fin 256, x1 (row j k) * x4 (col j k)) + x3 (biasAt j)) 0 := by
  unfold k1_pay1
  simp only [shapeCast_self]
  show max ((matmul (F := Ideal) dot_S2000x256_S256x128_S2000x128_1_0_0_1_n_n none (truncf .bf16 x0 bitsLt_bf16_f32) (truncf .bf16 x2 bitsLt_bf16_f32) (constant S2000x128 .f32 0x00000000#32) j
      + matmul (F := Ideal) dot_S2000x256_S256x128_S2000x128_1_0_0_1_n_n none (truncf .bf16 x1 bitsLt_bf16_f32) (truncf .bf16 x4 bitsLt_bf16_f32) (constant S2000x128 .f32 0x00000000#32) j)
      + broadcastTo S2000x128 x3 broadcasts_S1x128_S2000x128 j) (Ideal.ofBits .f32 0x00000000#32) = _
  rw [blockDot_apply, blockDot_apply, Ideal.ofBits_zero_f32,
    broadcastTo_apply x3 broadcasts_S1x128_S2000x128 j (biasAt j) (fun a => match a with
      | ⟨0, _⟩ => by show 0 = if (1 : Nat) = 1 then 0 else _; rw [if_pos rfl]
      | ⟨1, _⟩ => by show (j 1).val = if (128 : Nat) = 1 then 0 else _; rw [if_neg (by decide)]; rfl)]
  rfl

/-! ## What a grid point writes back -/

theorem hz : (![0, 0] : Fin 2 → Nat) = fun _ => 0 := funext fun a => by fin_cases a <;> rfl

/-- The printed index maps over the 25 grid points: the two feature windows move with the output window along the
    rows, the weights and the bias stay at block zero, and the output's block index runs over the 25 row blocks. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every one of the 25 row blocks is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

variable (V : (c : Dev nD) → (b : Ref sig .tc) → Buf (Elt Ideal) ((c : Thread nD τ).loc b))

/-- What point `t` writes back is block `t` of the second layer of the arrays the region finds, the bias array being
    the bias `b` as one row. -/
theorem flushed_eq (c : Dev nD) (b : Cert.Net.Arr Ideal S128 .f32)
    (hb : V c main_v43 = shapeCast S1x128 b shapeCasts_S128_S1x128) (t : Fin cfg1.N) :
    (dat1 (F := Ideal) V c).flushed 5 t
      = ((cfg1.win 5).blk t).view.read (Elt Ideal) (Cert.Net.conv2 (V c main_v42) (V c main_v29) (V c main_arg4) b (V c main_arg6)) := by
  show (cfg1.win 5).cut (grid1.coords t) ((dat1 (F := Ideal) V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨e00, e01, e10, e11, e20, e21, e30, e31, e40, e41, e5b, e51⟩ := idx_facts t
  funext j
  refine (pay_apply (iblk1 V c 0 t) (iblk1 V c 1 t) (iblk1 V c 2 t) (iblk1 V c 4 t) (iblk1 V c 3 t) j).trans ?_
  show _ = Cert.Net.conv2 (V c main_v42) (V c main_v29) (V c main_arg4) b (V c main_arg6) (((cfg1.win 5).blk t).view.emb j)
  rw [Cert.Net.conv2_apply]
  -- a row of a feature block is that row of the array, 2000 t rows down
  have hrow : ∀ k : Fin 256, ((cfg1.win 0).blk t).view.emb (row j k) = Cert.Net.conv2_row (((cfg1.win 5).blk t).view.emb j) k := fun k => by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  have hrow' : ∀ k : Fin 256, ((cfg1.win 1).blk t).view.emb (row j k) = Cert.Net.conv2_row (((cfg1.win 5).blk t).view.emb j) k := fun k => by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  -- the weights' one block is the whole matrix
  have hcol : ∀ k : Fin 256, ((cfg1.win 2).blk t).view.emb (col j k) = Cert.Net.conv2_col (((cfg1.win 5).blk t).view.emb j) k := fun k => by
    funext a; apply Fin.ext
    match a with
    | ⟨0, _⟩ => show win1_2.index t (0 : Fin 2) * 256 + 1 * k.val = k.val; omega
    | ⟨1, _⟩ => show win1_2.index t (1 : Fin 2) * 128 + 1 * (j 1).val = win1_5.index t (1 : Fin 2) * 128 + 1 * (j 1).val; omega
  have hcol' : ∀ k : Fin 256, ((cfg1.win 4).blk t).view.emb (col j k) = Cert.Net.conv2_col (((cfg1.win 5).blk t).view.emb j) k := fun k => by
    funext a; apply Fin.ext
    match a with
    | ⟨0, _⟩ => show win1_4.index t (0 : Fin 2) * 256 + 1 * k.val = k.val; omega
    | ⟨1, _⟩ => show win1_4.index t (1 : Fin 2) * 128 + 1 * (j 1).val = win1_5.index t (1 : Fin 2) * 128 + 1 * (j 1).val; omega
  -- the bias row's entry is the bias's
  have hbias : iblk1 V c 3 t (biasAt j) = b (Cert.Net.conv2_bias (((cfg1.win 5).blk t).view.emb j)) := by
    show V c main_v43 (((cfg1.win 3).blk t).view.emb (biasAt j)) = _
    rw [hb, shapeCast_addUnit_apply]
    refine congrArg b (funext fun a => Fin.ext ?_)
    match a with
    | ⟨0, _⟩ => show win1_3.index t (1 : Fin 2) * 128 + 1 * (j 1).val = win1_5.index t (1 : Fin 2) * 128 + 1 * (j 1).val; omega
  have hA : ∀ k : Fin 256, iblk1 V c 0 t (row j k) = V c main_v42 (Cert.Net.conv2_row (((cfg1.win 5).blk t).view.emb j) k) := fun k =>
    congrArg (V c main_v42) (hrow k)
  have hX : ∀ k : Fin 256, iblk1 V c 1 t (row j k) = V c main_v29 (Cert.Net.conv2_row (((cfg1.win 5).blk t).view.emb j) k) := fun k =>
    congrArg (V c main_v29) (hrow' k)
  have hWr : ∀ k : Fin 256, iblk1 V c 2 t (col j k) = V c main_arg4 (Cert.Net.conv2_col (((cfg1.win 5).blk t).view.emb j) k) := fun k =>
    congrArg (V c main_arg4) (hcol k)
  have hWo : ∀ k : Fin 256, iblk1 V c 4 t (col j k) = V c main_arg6 (Cert.Net.conv2_col (((cfg1.win 5).blk t).view.emb j) k) := fun k =>
    congrArg (V c main_arg6) (hcol' k)
  rw [add_right_comm]
  refine congrArg (fun z => max z 0) (congrArg₂ (· + ·) (congrArg₂ (· + ·) ?_ hbias) ?_)
  · exact Finset.sum_congr rfl fun k _ => by rw [hA k, hWr k]
  · exact Finset.sum_congr rfl fun k _ => by rw [hX k, hWo k]

/-! ## The 25 blocks tile the array -/

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v44).slice (win1_5.rect t)).set ↔ _
  rw [View.set_slice_whole, Rect.mem_set_unit]
  exact Iff.rfl

/-- Row `r` lies in the block of the point whose row block is `r / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-! ## The array the region leaves -/

/-- After the region its output array holds the second layer of the arrays it found. -/
theorem array_eq (c : Dev nD) (b : Cert.Net.Arr Ideal S128 .f32)
    (hb : V c main_v43 = shapeCast S1x128 b shapeCasts_S128_S1x128) :
    (dat1 (F := Ideal) V c).arrAt 5 cfg1.N = Cert.Net.conv2 (V c main_v42) (V c main_v29) (V c main_arg4) b (V c main_arg6) :=
  (dat1 (F := Ideal) V c).arrAt_eq_of_cover 5 _ (fun t _ => flushed_eq V c b hb t) cover

end Cert.KernelIdeal.Conv2

end
-- ==== Proof.NetAt3.lean ====
/-
  An output head read at an index.  At the ideal values the host's matrix product is the plain sum over the
  contracted axis and a broadcast reads its operand at the coordinate it keeps; a head is not clamped, so entry
  (r, q) of it is
      (∑ k, a (r, k) · W_rel (k, q) + b q) + ∑ k, x (r, k) · W_root (k, q).
-/
import proofs.«130011_j27066883899544_1_alg».proof.Proof.Net
import Idealize.ShloMosaic.Lib.Pipeline.Value
import Idealize.ShloMosaic.Lib.ValueIdx
import Idealize.ShloMosaic.PureOps.Ideal.Laws

noncomputable section

namespace Cert.Net

open Cert.ReferenceIdeal Cert.ReferenceIdeal.Gen Idealize.ShloMosaic Idealize.ShloMosaic.TcCoe

/-! ## The product's operand indices, axis by axis -/

theorem head_lhs_0 (i : S50000x16.Idx) (q : dot_S50000x128_S128x16_S50000x16_1_0_0_1_n_n.contr.Idx) : (dot_S50000x128_S128x16_S50000x16_1_0_0_1_n_n.lhsIdx i q 0).val = (i 0).val := by
  unfold DotDims.lhsIdx
  rw [dif_neg (show ¬(0 : Fin S50000x128.rank) ∈ dot_S50000x128_S128x16_S50000x16_1_0_0_1_n_n.lhsBatch by decide), dif_pos (show (0 : Fin S50000x128.rank) ∈ dot_S50000x128_S128x16_S50000x16_1_0_0_1_n_n.lhsNonContracting by decide)]
  rfl
theorem head_lhs_1 (i : S50000x16.Idx) (q : dot_S50000x128_S128x16_S50000x16_1_0_0_1_n_n.contr.Idx) : (dot_S50000x128_S128x16_S50000x16_1_0_0_1_n_n.lhsIdx i q 1).val = (q ⟨0, by decide⟩).val :=
  dot_S50000x128_S128x16_S50000x16_1_0_0_1_n_n.lhsIdx_val_of_single rfl i q
theorem head_rhs_0 (i : S50000x16.Idx) (q : dot_S50000x128_S128x16_S50000x16_1_0_0_1_n_n.contr.Idx) : (dot_S50000x128_S128x16_S50000x16_1_0_0_1_n_n.rhsIdx i q 0).val = (q ⟨0, by decide⟩).val :=
  dot_S50000x128_S128x16_S50000x16_1_0_0_1_n_n.rhsIdx_val_of_single rfl i q
theorem head_rhs_1 (i : S50000x16.Idx) (q : dot_S50000x128_S128x16_S50000x16_1_0_0_1_n_n.contr.Idx) : (dot_S50000x128_S128x16_S50000x16_1_0_0_1_n_n.rhsIdx i q 1).val = (i 1).val := by
  unfold DotDims.rhsIdx
  rw [dif_neg (show ¬(1 : Fin S128x16.rank) ∈ dot_S50000x128_S128x16_S50000x16_1_0_0_1_n_n.rhsBatch by decide), dif_pos (show (1 : Fin S128x16.rank) ∈ dot_S50000x128_S128x16_S50000x16_1_0_0_1_n_n.rhsNonContracting by decide)]
  rfl

/-- Row `i 0` of a feature array at column `k`. -/
abbrev head_row (i : S50000x16.Idx) (k : Fin 128) : S50000x128.Idx := fun a => match a with
  | ⟨0, _⟩ => ⟨(i 0).val, (i 0).isLt⟩
  | ⟨1, _⟩ => ⟨k.val, k.isLt⟩
/-- Row `k` of a weight matrix at column `i 1`. -/
abbrev head_col (i : S50000x16.Idx) (k : Fin 128) : S128x16.Idx := fun a => match a with
  | ⟨0, _⟩ => ⟨k.val, k.isLt⟩
  | ⟨1, _⟩ => ⟨(i 1).val, (i 1).isLt⟩
/-- The bias entry of column `i 1`. -/
abbrev head_bias (i : S50000x16.Idx) : S16.Idx := fun a => match a with
  | ⟨0, _⟩ => ⟨(i 1).val, (i 1).isLt⟩

/-- The host's product of a feature array with a weight matrix, at an index: the sum over the 128 contracted columns. -/
theorem head_dot_apply (a : FVec Ideal S50000x128 .f32) (w : FVec Ideal S128x16 .f32) (i : S50000x16.Idx) :
    Host.dotGeneral (F := Ideal) dot_S50000x128_S128x16_S50000x16_1_0_0_1_n_n none a w i = ∑ k : Fin 128, a (head_row i k) * w (head_col i k) := by
  simp only [Host.dotGeneral]
  rw [Ideal.dotGeneral_apply, ← Equiv.sum_comp (ValueIdx.contrEquiv1 dot_S50000x128_S128x16_S50000x16_1_0_0_1_n_n 128 rfl rfl).symm]
  refine Finset.sum_congr rfl fun k _ => ?_
  have hk := ValueIdx.contrEquiv1_symm_val dot_S50000x128_S128x16_S50000x16_1_0_0_1_n_n 128 rfl rfl k
  have el : dot_S50000x128_S128x16_S50000x16_1_0_0_1_n_n.lhsIdx i ((ValueIdx.contrEquiv1 dot_S50000x128_S128x16_S50000x16_1_0_0_1_n_n 128 rfl rfl).symm k) = head_row i k := funext fun a => Fin.ext (by
    match a with
    | ⟨0, _⟩ => exact head_lhs_0 _ _
    | ⟨1, _⟩ => exact (head_lhs_1 _ _).trans hk)
  have er : dot_S50000x128_S128x16_S50000x16_1_0_0_1_n_n.rhsIdx i ((ValueIdx.contrEquiv1 dot_S50000x128_S128x16_S50000x16_1_0_0_1_n_n 128 rfl rfl).symm k) = head_col i k := funext fun a => Fin.ext (by
    match a with
    | ⟨0, _⟩ => exact (head_rhs_0 _ _).trans hk
    | ⟨1, _⟩ => exact head_rhs_1 _ _)
  rw [el, er]

/-- The bias, broadcast along the rows, at an index: its entry of that column. -/
theorem head_bias_apply (b : Arr Ideal S16 .f32) (i : S50000x16.Idx) :
    broadcastInDim S50000x16 ![0, 1] bcast_S1x16_S50000x16_0_1 (broadcastInDim S1x16 ![1] bcast_S16_S1x16_1 b) i = b (head_bias i) := by
  have h1 : ∀ (y : Arr Ideal S1x16 .f32), broadcastInDim S50000x16 ![0, 1] bcast_S1x16_S50000x16_0_1 y i
      = y (fun a => match a with | ⟨0, _⟩ => ⟨0, Nat.one_pos⟩ | ⟨1, _⟩ => ⟨(i 1).val, (i 1).isLt⟩) := fun y =>
    broadcastInDim_apply _ bcast_S1x16_S50000x16_0_1 y i _ (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])
  rw [h1]
  exact broadcastInDim_apply _ bcast_S16_S1x16_1 b _ (head_bias i) (fun a => match a with
    | ⟨0, _⟩ => by show (i 1).val = if (16 : Nat) = 1 then 0 else (i 1).val; rw [if_neg (by decide)])

/-- An output head at an index. -/
theorem head_apply (a x : Arr Ideal S50000x128 .f32) (wrel : Arr Ideal S128x16 .f32) (b : Arr Ideal S16 .f32) (wroot : Arr Ideal S128x16 .f32) (i : S50000x16.Idx) :
    head (F := Ideal) a x wrel b wroot i
      = ((∑ k : Fin 128, a (head_row i k) * wrel (head_col i k)) + b (head_bias i)) + ∑ k : Fin 128, x (head_row i k) * wroot (head_col i k) := by
  unfold head
  show (Host.dotGeneral (F := Ideal) (φ₁ := .f32) (φ₂ := .f32) dot_S50000x128_S128x16_S50000x16_1_0_0_1_n_n none a wrel i
        + broadcastInDim S50000x16 ![0, 1] bcast_S1x16_S50000x16_0_1 (broadcastInDim S1x16 ![1] bcast_S16_S1x16_1 b) i)
      + Host.dotGeneral (F := Ideal) (φ₁ := .f32) (φ₂ := .f32) dot_S50000x128_S128x16_S50000x16_1_0_0_1_n_n none x wroot i = _
  rw [head_dot_apply, head_dot_apply, head_bias_apply]

end Cert.Net

end
-- ==== Proof.HeadBlock.lean ====
/-
  Region 2's body, shared by its two output heads.

  At grid point `t` the body multiplies rows `2000 t … 2000 t + 1999` of the aggregated second hidden features and
  of the second hidden features by a head's two (whole) weight matrices and adds the two products and the head's
  bias row; it does so twice, once per head, from the same two feature blocks.  A row of a matrix product depends
  only on that row of the left factor, so each block written back is rows `2000 t …` of the head computed on the
  whole arrays; the 25 blocks tile the 50000 rows, so each array ends holding its head.  The kernel adds the bias
  last and the reference second: on the extended reals the two groupings of the three summands are equal
  (`add_right_comm`).
-/
import proofs.«130011_j27066883899544_1_alg».proof.Proof.Gen.KernelIdeal.Frame
import proofs.«130011_j27066883899544_1_alg».proof.Proof.NetAt3
import Idealize.ShloMosaic.Lib.Pipeline.Value
import Idealize.ShloMosaic.Lib.ValueIdx
import Idealize.ShloMosaic.PureOps.Ideal.Laws

set_option maxRecDepth 16384

noncomputable section

namespace Cert.KernelIdeal.Heads

open Cert.KernelIdeal Cert.KernelIdeal.Gen Idealize.ShloMosaic Idealize.ShloMosaic.TcCoe Idealize.SL.Sem
open Idealize.ShloMosaic.Pipeline (Dat)

/-! ## A block's two products and its bias row, at an index -/

theorem lhs_0 (j : S2000x16.Idx) (q : dot_S2000x128_S128x16_S2000x16_1_0_0_1_n_n.contr.Idx) : (dot_S2000x128_S128x16_S2000x16_1_0_0_1_n_n.lhsIdx j q 0).val = (j 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_1 (j : S2000x16.Idx) (q : dot_S2000x128_S128x16_S2000x16_1_0_0_1_n_n.contr.Idx) : (dot_S2000x128_S128x16_S2000x16_1_0_0_1_n_n.lhsIdx j q 1).val = (q ⟨0, by decide⟩).val :=
  dot_S2000x128_S128x16_S2000x16_1_0_0_1_n_n.lhsIdx_val_of_single rfl j q
theorem rhs_0 (j : S2000x16.Idx) (q : dot_S2000x128_S128x16_S2000x16_1_0_0_1_n_n.contr.Idx) : (dot_S2000x128_S128x16_S2000x16_1_0_0_1_n_n.rhsIdx j q 0).val = (q ⟨0, by decide⟩).val :=
  dot_S2000x128_S128x16_S2000x16_1_0_0_1_n_n.rhsIdx_val_of_single rfl j q
theorem rhs_1 (j : S2000x16.Idx) (q : dot_S2000x128_S128x16_S2000x16_1_0_0_1_n_n.contr.Idx) : (dot_S2000x128_S128x16_S2000x16_1_0_0_1_n_n.rhsIdx j q 1).val = (j 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- Row `j 0` of a block of features at column `k`. -/
abbrev row (j : S2000x16.Idx) (k : Fin 128) : S2000x128.Idx := fun a => match a with
  | ⟨0, _⟩ => ⟨(j 0).val, (j 0).isLt⟩
  | ⟨1, _⟩ => ⟨k.val, k.isLt⟩
/-- Row `k` of a weight matrix at column `j 1`. -/
abbrev col (j : S2000x16.Idx) (k : Fin 128) : S128x16.Idx := fun a => match a with
  | ⟨0, _⟩ => ⟨k.val, k.isLt⟩
  | ⟨1, _⟩ => ⟨(j 1).val, (j 1).isLt⟩
/-- The bias row's entry of column `j 1`. -/
abbrev biasAt (j : S2000x16.Idx) : S1x16.Idx := fun a => match a with
  | ⟨0, _⟩ => ⟨0, Nat.one_pos⟩
  | ⟨1, _⟩ => ⟨(j 1).val, (j 1).isLt⟩

/-- A block's product into the zero accumulator, at an index: the sum over the 128 contracted columns. -/
theorem blockDot_apply {φ₁ φ₂ : FTy} (l : FVec Ideal S2000x128 φ₁) (r : FVec Ideal S128x16 φ₂) (j : S2000x16.Idx) :
    matmul dot_S2000x128_S128x16_S2000x16_1_0_0_1_n_n none l r (constant S2000x16 .f32 0x00000000#32) j = ∑ k : Fin 128, l (row j k) * r (col j k) := by
  simp only [matmul]
  rw [Ideal.matmul_constant_zero_apply, ← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx j ((ValueIdx.contrEquiv1 dot_S2000x128_S128x16_S2000x16_1_0_0_1_n_n 128 rfl rfl).symm k) = row j k := funext fun a => Fin.ext (by
    match a with
    | ⟨0, _⟩ => exact lhs_0 _ _
    | ⟨1, _⟩ => exact (lhs_1 _ _).trans hk)
  have er : dot_S2000x128_S128x16_S2000x16_1_0_0_1_n_n.rhsIdx j ((ValueIdx.contrEquiv1 dot_S2000x128_S128x16_S2000x16_1_0_0_1_n_n 128 rfl rfl).symm k) = col j k := funext fun a => Fin.ext (by
    match a with
    | ⟨0, _⟩ => exact (rhs_0 _ _).trans hk
    | ⟨1, _⟩ => exact rhs_1 _ _)
  rw [el, er]

/-- The first stored value at an index of the block: the two row-by-column sums and the bias entry. -/
theorem mu_pay_apply (x0 x1 : Vec Ideal S2000x128 .f32) (x2 x4 : Vec Ideal S128x16 .f32) (x3 : Vec Ideal S1x16 .f32) (j : S2000x16.Idx) :
    k2_pay3 (F := Ideal) x0 x1 x2 x4 x3 j
      = ((∑ k : Fin 128, x0 (row j k) * x2 (col j k)) + ∑ k : Fin 128, x1 (row j k) * x4 (col j k)) + x3 (biasAt j) := by
  unfold k2_pay3 k2_pay1 k2_pay2
  simp only [shapeCast_self]
  show (matmul (F := Ideal) dot_S2000x128_S128x16_S2000x16_1_0_0_1_n_n none (truncf .bf16 x0 bitsLt_bf16_f32) (truncf .bf16 x2 bitsLt_bf16_f32) (constant S2000x16 .f32 0x00000000#32) j
      + matmul (F := Ideal) dot_S2000x128_S128x16_S2000x16_1_0_0_1_n_n none (truncf .bf16 x1 bitsLt_bf16_f32) (truncf .bf16 x4 bitsLt_bf16_f32) (constant S2000x16 .f32 0x00000000#32) j)
      + broadcastTo S2000x16 x3 broadcasts_S1x16_S2000x16 j = _
  rw [blockDot_apply, blockDot_apply,
    broadcastTo_apply x3 broadcasts_S1x16_S2000x16 j (biasAt j) (fun a => match a with
      | ⟨0, _⟩ => by show 0 = if (1 : Nat) = 1 then 0 else _; rw [if_pos rfl]
      | ⟨1, _⟩ => by show (j 1).val = if (16 : Nat) = 1 then 0 else _; rw [if_neg (by decide)]; rfl)]
  rfl

/-- The second stored value is the same function of its own weights and bias row. -/
theorem ls_pay_apply (x0 x1 : Vec Ideal S2000x128 .f32) (x2 x4 : Vec Ideal S128x16 .f32) (x3 : Vec Ideal S1x16 .f32) (j : S2000x16.Idx) :
    k2_pay4 (F := Ideal) x0 x1 x2 x4 x3 j
      = ((∑ k : Fin 128, x0 (row j k) * x2 (col j k)) + ∑ k : Fin 128, x1 (row j k) * x4 (col j k)) + x3 (biasAt j) :=
  mu_pay_apply x0 x1 x2 x4 x3 j

/-! ## What a grid point writes back -/

theorem hz : (![0, 0] : Fin 2 → Nat) = fun _ => 0 := funext fun a => by fin_cases a <;> rfl

/-- The printed index maps over the 25 grid points: the two feature windows move with the output windows along the
    rows, the weights and the bias rows stay at block zero, and each output's block index runs over the 25 row blocks. -/
theorem idx_facts : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) ≤ 24 ∧ win2_8.index t (1 : Fin 2) = 0
    ∧ win2_9.index t (0 : Fin 2) = win2_8.index t (0 : Fin 2) ∧ win2_9.index t (1 : Fin 2) = 0 :=
  (by decide +kernel : ∀ t : Fin grid2.N, _)

/-- Every one of the 25 row blocks is some point's, in either output. -/
theorem mu_idx_onto : ∀ q0 : Fin 25, ∃ t : Fin cfg2.N, win2_8.index t = ![q0.val, 0] :=
  (by decide +kernel : ∀ q0 : Fin 25, ∃ t : Fin grid2.N, win2_8.index t = ![q0.val, 0])
theorem ls_idx_onto : ∀ q0 : Fin 25, ∃ t : Fin cfg2.N, win2_9.index t = ![q0.val, 0] :=
  (by decide +kernel : ∀ q0 : Fin 25, ∃ t : Fin grid2.N, win2_9.index t = ![q0.val, 0])

end Cert.KernelIdeal.Heads

end
-- ==== Proof.HeadMu.lean ====
/-
  Region 2 leaves the first output head in its first output array: each block written back is rows `2000 t …` of the
  head computed on the whole arrays, and the 25 blocks tile the 50000 rows.
-/
import proofs.«130011_j27066883899544_1_alg».proof.Proof.HeadBlock

set_option maxRecDepth 16384

noncomputable section

namespace Cert.KernelIdeal.Heads

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The first head -/

/-- What point `t` writes back into the first array is block `t` of the head of the arrays the region finds, the bias
    array being the bias `b` as one row. -/
theorem mu_flushed_eq (c : Dev nD) (b : Cert.Net.Arr Ideal S16 .f32)
    (hb : V c main_v58 = shapeCast S1x16 b shapeCasts_S16_S1x16) (t : Fin cfg2.N) :
    (dat2 (F := Ideal) V c).flushed 8 t
      = ((cfg2.win 8).blk t).view.read (Elt Ideal) (Cert.Net.head (V c main_v57) (V c main_v44) (V c main_arg7) b (V c main_arg9)) := by
  show (cfg2.win 8).cut (grid2.coords t) ((dat2 (F := Ideal) V c).after 8 t) = _
  rw [after2_8]
  unfold out2_8
  rw [View.canon_unit_zero hz]
  simp only [View.ld_unit_zero (S := S2000x128) hz, View.ld_unit_zero (S := S128x16) hz, View.ld_unit_zero (S := S1x16) hz]
  obtain ⟨e00, e01, e10, e11, e20, e21, e30, e31, e40, e41, e50, e51, e60, e61, e70, e71, e8b, e81, e98, e91⟩ := idx_facts t
  funext j
  refine (mu_pay_apply (iblk2 V c 0 t) (iblk2 V c 1 t) (iblk2 V c 2 t) (iblk2 V c 4 t) (iblk2 V c 3 t) j).trans ?_
  show _ = Cert.Net.head (V c main_v57) (V c main_v44) (V c main_arg7) b (V c main_arg9) (((cfg2.win 8).blk t).view.emb j)
  rw [Cert.Net.head_apply]
  -- a row of a feature block is that row of the array, 2000 t rows down
  have hrow : ∀ k : Fin 128, ((cfg2.win 0).blk t).view.emb (row j k) = Cert.Net.head_row (((cfg2.win 8).blk t).view.emb j) k := fun k => by
    funext a; apply Fin.ext
    match a with
    | ⟨0, _⟩ => show win2_0.index t (0 : Fin 2) * 2000 + 1 * (j 0).val = win2_8.index t (0 : Fin 2) * 2000 + 1 * (j 0).val; omega
    | ⟨1, _⟩ => show win2_0.index t (1 : Fin 2) * 128 + 1 * k.val = k.val; omega
  have hrow' : ∀ k : Fin 128, ((cfg2.win 1).blk t).view.emb (row j k) = Cert.Net.head_row (((cfg2.win 8).blk t).view.emb j) k := fun k => by
    funext a; apply Fin.ext
    match a with
    | ⟨0, _⟩ => show win2_1.index t (0 : Fin 2) * 2000 + 1 * (j 0).val = win2_8.index t (0 : Fin 2) * 2000 + 1 * (j 0).val; omega
    | ⟨1, _⟩ => show win2_1.index t (1 : Fin 2) * 128 + 1 * k.val = k.val; omega
  -- the weights' one block is the whole matrix
  have hcol : ∀ k : Fin 128, ((cfg2.win 2).blk t).view.emb (col j k) = Cert.Net.head_col (((cfg2.win 8).blk t).view.emb j) k := fun k => by
    funext a; apply Fin.ext
    match a with
    | ⟨0, _⟩ => show win2_2.index t (0 : Fin 2) * 128 + 1 * k.val = k.val; omega
    | ⟨1, _⟩ => show win2_2.index t (1 : Fin 2) * 16 + 1 * (j 1).val = win2_8.index t (1 : Fin 2) * 16 + 1 * (j 1).val; omega
  have hcol' : ∀ k : Fin 128, ((cfg2.win 4).blk t).view.emb (col j k) = Cert.Net.head_col (((cfg2.win 8).blk t).view.emb j) k := fun k => by
    funext a; apply Fin.ext
    match a with
    | ⟨0, _⟩ => show win2_4.index t (0 : Fin 2) * 128 + 1 * k.val = k.val; omega
    | ⟨1, _⟩ => show win2_4.index t (1 : Fin 2) * 16 + 1 * (j 1).val = win2_8.index t (1 : Fin 2) * 16 + 1 * (j 1).val; omega
  -- the bias row's entry is the bias's
  have hbias : iblk2 V c 3 t (biasAt j) = b (Cert.Net.head_bias (((cfg2.win 8).blk t).view.emb j)) := by
    show V c main_v58 (((cfg2.win 3).blk t).view.emb (biasAt j)) = _
    rw [hb, shapeCast_addUnit_apply]
    refine congrArg b (funext fun a => Fin.ext ?_)
    match a with
    | ⟨0, _⟩ => show win2_3.index t (1 : Fin 2) * 16 + 1 * (j 1).val = win2_8.index t (1 : Fin 2) * 16 + 1 * (j 1).val; omega
  have hA : ∀ k : Fin 128, iblk2 V c 0 t (row j k) = V c main_v57 (Cert.Net.head_row (((cfg2.win 8).blk t).view.emb j) k) := fun k =>
    congrArg (V c main_v57) (hrow k)
  have hX : ∀ k : Fin 128, iblk2 V c 1 t (row j k) = V c main_v44 (Cert.Net.head_row (((cfg2.win 8).blk t).view.emb j) k) := fun k =>
    congrArg (V c main_v44) (hrow' k)
  have hWr : ∀ k : Fin 128, iblk2 V c 2 t (col j k) = V c main_arg7 (Cert.Net.head_col (((cfg2.win 8).blk t).view.emb j) k) := fun k =>
    congrArg (V c main_arg7) (hcol k)
  have hWo : ∀ k : Fin 128, iblk2 V c 4 t (col j k) = V c main_arg9 (Cert.Net.head_col (((cfg2.win 8).blk t).view.emb j) k) := fun k =>
    congrArg (V c main_arg9) (hcol' k)
  rw [add_right_comm]
  refine congrArg₂ (· + ·) (congrArg₂ (· + ·) ?_ hbias) ?_
  · exact Finset.sum_congr rfl fun k _ => by rw [hA k, hWr k]
  · exact Finset.sum_congr rfl fun k _ => by rw [hX k, hWo k]

/-- An index of the first array is in point `t`'s block iff each coordinate is in the block's range on its axis. -/
theorem mu_mem_blk (t : Fin cfg2.N) (i : S50000x16.Idx) :
    i ∈ ((cfg2.win 8).blk t).view.set ↔ ∀ a : Fin 2, win2_8.index t a * S2000x16.size a ≤ (i a).val ∧ (i a).val < win2_8.index t a * S2000x16.size a + S2000x16.size a := by
  show i ∈ ((View.whole main_v60_0).slice (win2_8.rect t)).set ↔ _
  rw [View.set_slice_whole, Rect.mem_set_unit]
  exact Iff.rfl

/-- Row `r` lies in the block of the point whose row block is `r / 2000`. -/
theorem mu_cover (i : S50000x16.Idx) : ∃ t : Fin cfg2.N, (cfg2.win 8).flush t = true ∧ i ∈ ((cfg2.win 8).blk t).view.set := by
  have hi0 : (i 0).val < 50000 := (i 0).isLt
  have hi1 : (i 1).val < 16 := (i 1).isLt
  obtain ⟨t, ht⟩ := mu_idx_onto ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  rw [mu_mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 16 ≤ (i 1).val ∧ (i 1).val < win2_8.index t (1 : Fin 2) * 16 + 16; omega

/-- After the region the first array holds the head of the arrays the region found. -/
theorem mu_array_eq (c : Dev nD) (b : Cert.Net.Arr Ideal S16 .f32)
    (hb : V c main_v58 = shapeCast S1x16 b shapeCasts_S16_S1x16) :
    (dat2 (F := Ideal) V c).arrAt 8 cfg2.N = Cert.Net.head (V c main_v57) (V c main_v44) (V c main_arg7) b (V c main_arg9) :=
  (dat2 (F := Ideal) V c).arrAt_eq_of_cover 8 _ (fun t _ => mu_flushed_eq V c b hb t) mu_cover

end Cert.KernelIdeal.Heads

end
-- ==== Proof.HeadLs.lean ====
/-
  Region 2 leaves the second output head in its second output array: each block written back is rows `2000 t …` of the
  head computed on the whole arrays, and the 25 blocks tile the 50000 rows.
-/
import proofs.«130011_j27066883899544_1_alg».proof.Proof.HeadBlock

set_option maxRecDepth 16384

noncomputable section

namespace Cert.KernelIdeal.Heads

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The second head -/

/-- What point `t` writes back into the second array is block `t` of the head of the arrays the region finds, the bias
    array being the bias `b` as one row. -/
theorem ls_flushed_eq (c : Dev nD) (b : Cert.Net.Arr Ideal S16 .f32)
    (hb : V c main_v59 = shapeCast S1x16 b shapeCasts_S16_S1x16) (t : Fin cfg2.N) :
    (dat2 (F := Ideal) V c).flushed 9 t
      = ((cfg2.win 9).blk t).view.read (Elt Ideal) (Cert.Net.head (V c main_v57) (V c main_v44) (V c main_arg10) b (V c main_arg12)) := by
  show (cfg2.win 9).cut (grid2.coords t) ((dat2 (F := Ideal) V c).after 9 t) = _
  rw [after2_9]
  unfold out2_9
  rw [View.canon_unit_zero hz]
  simp only [View.ld_unit_zero (S := S2000x128) hz, View.ld_unit_zero (S := S128x16) hz, View.ld_unit_zero (S := S1x16) hz]
  obtain ⟨e00, e01, e10, e11, e20, e21, e30, e31, e40, e41, e50, e51, e60, e61, e70, e71, e8b, e81, e98, e91⟩ := idx_facts t
  funext j
  refine (ls_pay_apply (iblk2 V c 0 t) (iblk2 V c 1 t) (iblk2 V c 5 t) (iblk2 V c 7 t) (iblk2 V c 6 t) j).trans ?_
  show _ = Cert.Net.head (V c main_v57) (V c main_v44) (V c main_arg10) b (V c main_arg12) (((cfg2.win 9).blk t).view.emb j)
  rw [Cert.Net.head_apply]
  -- a row of a feature block is that row of the array, 2000 t rows down
  have hrow : ∀ k : Fin 128, ((cfg2.win 0).blk t).view.emb (row j k) = Cert.Net.head_row (((cfg2.win 9).blk t).view.emb j) k := fun k => by
    funext a; apply Fin.ext
    match a with
    | ⟨0, _⟩ => show win2_0.index t (0 : Fin 2) * 2000 + 1 * (j 0).val = win2_9.index t (0 : Fin 2) * 2000 + 1 * (j 0).val; omega
    | ⟨1, _⟩ => show win2_0.index t (1 : Fin 2) * 128 + 1 * k.val = k.val; omega
  have hrow' : ∀ k : Fin 128, ((cfg2.win 1).blk t).view.emb (row j k) = Cert.Net.head_row (((cfg2.win 9).blk t).view.emb j) k := fun k => by
    funext a; apply Fin.ext
    match a with
    | ⟨0, _⟩ => show win2_1.index t (0 : Fin 2) * 2000 + 1 * (j 0).val = win2_9.index t (0 : Fin 2) * 2000 + 1 * (j 0).val; omega
    | ⟨1, _⟩ => show win2_1.index t (1 : Fin 2) * 128 + 1 * k.val = k.val; omega
  -- the weights' one block is the whole matrix
  have hcol : ∀ k : Fin 128, ((cfg2.win 5).blk t).view.emb (col j k) = Cert.Net.head_col (((cfg2.win 9).blk t).view.emb j) k := fun k => by
    funext a; apply Fin.ext
    match a with
    | ⟨0, _⟩ => show win2_5.index t (0 : Fin 2) * 128 + 1 * k.val = k.val; omega
    | ⟨1, _⟩ => show win2_5.index t (1 : Fin 2) * 16 + 1 * (j 1).val = win2_9.index t (1 : Fin 2) * 16 + 1 * (j 1).val; omega
  have hcol' : ∀ k : Fin 128, ((cfg2.win 7).blk t).view.emb (col j k) = Cert.Net.head_col (((cfg2.win 9).blk t).view.emb j) k := fun k => by
    funext a; apply Fin.ext
    match a with
    | ⟨0, _⟩ => show win2_7.index t (0 : Fin 2) * 128 + 1 * k.val = k.val; omega
    | ⟨1, _⟩ => show win2_7.index t (1 : Fin 2) * 16 + 1 * (j 1).val = win2_9.index t (1 : Fin 2) * 16 + 1 * (j 1).val; omega
  -- the bias row's entry is the bias's
  have hbias : iblk2 V c 6 t (biasAt j) = b (Cert.Net.head_bias (((cfg2.win 9).blk t).view.emb j)) := by
    show V c main_v59 (((cfg2.win 6).blk t).view.emb (biasAt j)) = _
    rw [hb, shapeCast_addUnit_apply]
    refine congrArg b (funext fun a => Fin.ext ?_)
    match a with
    | ⟨0, _⟩ => show win2_6.index t (1 : Fin 2) * 16 + 1 * (j 1).val = win2_9.index t (1 : Fin 2) * 16 + 1 * (j 1).val; omega
  have hA : ∀ k : Fin 128, iblk2 V c 0 t (row j k) = V c main_v57 (Cert.Net.head_row (((cfg2.win 9).blk t).view.emb j) k) := fun k =>
    congrArg (V c main_v57) (hrow k)
  have hX : ∀ k : Fin 128, iblk2 V c 1 t (row j k) = V c main_v44 (Cert.Net.head_row (((cfg2.win 9).blk t).view.emb j) k) := fun k =>
    congrArg (V c main_v44) (hrow' k)
  have hWr : ∀ k : Fin 128, iblk2 V c 5 t (col j k) = V c main_arg10 (Cert.Net.head_col (((cfg2.win 9).blk t).view.emb j) k) := fun k =>
    congrArg (V c main_arg10) (hcol k)
  have hWo : ∀ k : Fin 128, iblk2 V c 7 t (col j k) = V c main_arg12 (Cert.Net.head_col (((cfg2.win 9).blk t).view.emb j) k) := fun k =>
    congrArg (V c main_arg12) (hcol' k)
  rw [add_right_comm]
  refine congrArg₂ (· + ·) (congrArg₂ (· + ·) ?_ hbias) ?_
  · exact Finset.sum_congr rfl fun k _ => by rw [hA k, hWr k]
  · exact Finset.sum_congr rfl fun k _ => by rw [hX k, hWo k]

/-- An index of the second array is in point `t`'s block iff each coordinate is in the block's range on its axis. -/
theorem ls_mem_blk (t : Fin cfg2.N) (i : S50000x16.Idx) :
    i ∈ ((cfg2.win 9).blk t).view.set ↔ ∀ a : Fin 2, win2_9.index t a * S2000x16.size a ≤ (i a).val ∧ (i a).val < win2_9.index t a * S2000x16.size a + S2000x16.size a := by
  show i ∈ ((View.whole main_v60_1).slice (win2_9.rect t)).set ↔ _
  rw [View.set_slice_whole, Rect.mem_set_unit]
  exact Iff.rfl

/-- Row `r` lies in the block of the point whose row block is `r / 2000`. -/
theorem ls_cover (i : S50000x16.Idx) : ∃ t : Fin cfg2.N, (cfg2.win 9).flush t = true ∧ i ∈ ((cfg2.win 9).blk t).view.set := by
  have hi0 : (i 0).val < 50000 := (i 0).isLt
  have hi1 : (i 1).val < 16 := (i 1).isLt
  obtain ⟨t, ht⟩ := ls_idx_onto ⟨(i 0).val / 2000, by omega⟩
  have q0 : win2_9.index t (0 : Fin 2) = (i 0).val / 2000 := congrFun ht 0
  have q1 : win2_9.index t (1 : Fin 2) = 0 := congrFun ht 1
  refine ⟨t, flush2_9 t, ?_⟩
  rw [ls_mem_blk]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 16 ≤ (i 1).val ∧ (i 1).val < win2_9.index t (1 : Fin 2) * 16 + 16; omega

/-- After the region the second array holds the head of the arrays the region found. -/
theorem ls_array_eq (c : Dev nD) (b : Cert.Net.Arr Ideal S16 .f32)
    (hb : V c main_v59 = shapeCast S1x16 b shapeCasts_S16_S1x16) :
    (dat2 (F := Ideal) V c).arrAt 9 cfg2.N = Cert.Net.head (V c main_v57) (V c main_v44) (V c main_arg10) b (V c main_arg12) :=
  (dat2 (F := Ideal) V c).arrAt_eq_of_cover 9 _ (fun t _ => ls_flushed_eq V c b hb t) ls_cover

end Cert.KernelIdeal.Heads

end
-- ==== Proof.Whole.lean ====
/-
  The kernel's two results as the network's two outputs of its arguments.

  Region 0 leaves the first hidden features in `main_v29`: it finds the aggregated input features, the input
  features, the weights and the bias row, and leaves the first layer of them.  Region 1 finds the aggregation of what
  region 0 left and leaves the second layer in `main_v44`; region 2 finds the aggregation of that and leaves the
  two heads.  Chained, each result array holds the head of the second layer of the first layer of the arguments.
-/
import proofs.«130011_j27066883899544_1_alg».proof.Proof.Entry
import proofs.«130011_j27066883899544_1_alg».proof.Proof.Conv1
import proofs.«130011_j27066883899544_1_alg».proof.Proof.Conv2
import proofs.«130011_j27066883899544_1_alg».proof.Proof.HeadMu
import proofs.«130011_j27066883899544_1_alg».proof.Proof.HeadLs

set_option maxRecDepth 16384

noncomputable section

namespace Cert.KernelIdeal.Whole

open Cert.KernelIdeal Cert.KernelIdeal.Gen Cert.KernelIdeal.Entry Idealize.ShloMosaic Idealize.ShloMosaic.TcCoe Idealize.SL.Sem

variable (m : (ℓ : Loc nD τ sig) → Buf (Elt Ideal) ℓ) (ρ : Dev nD → PrngReg)

/-- Region 0 leaves the first hidden features of the arguments. -/
theorem first_hidden (c : Dev nD) :
    W4 m ρ c (Proc.devRef .tc main_v29) = Cert.Net.hidden1 (m ((c : Thread nD τ).loc main_arg0)) (m ((c : Thread nD τ).loc main_arg1)) (m ((c : Thread nD τ).loc main_arg2)) (m ((c : Thread nD τ).loc main_arg3)) (m ((c : Thread nD τ).loc main_arg13)) := by
  refine (W4_arr m ρ c 5).trans ((Conv1.array_eq (V3 m ρ) c (m ((c : Thread nD τ).loc main_arg2)) (entry0_bias m ρ c)).trans ?_)
  show Cert.Net.conv1 (W3 m ρ c (Proc.devRef .tc main_v27)) (W3 m ρ c (Proc.devRef .tc main_arg0)) (W3 m ρ c (Proc.devRef .tc main_arg1)) (m ((c : Thread nD τ).loc main_arg2)) (W3 m ρ c (Proc.devRef .tc main_arg3)) = _
  rw [entry0_agg, entry0_x, entry0_wrel, entry0_wroot]
  rfl

/-- Region 1 leaves the second layer of what region 0 left. -/
theorem second_hidden (c : Dev nD) :
    W6 m ρ c (Proc.devRef .tc main_v44) = Cert.Net.hidden2 (W4 m ρ c (Proc.devRef .tc main_v29)) (m ((c : Thread nD τ).loc main_arg4)) (m ((c : Thread nD τ).loc main_arg5)) (m ((c : Thread nD τ).loc main_arg6)) (m ((c : Thread nD τ).loc main_arg13)) := by
  refine (W6_arr m ρ c 5).trans ((Conv2.array_eq (V5 m ρ) c (m ((c : Thread nD τ).loc main_arg5)) (entry1_bias m ρ c)).trans ?_)
  show Cert.Net.conv2 (W5 m ρ c (Proc.devRef .tc main_v42)) (W5 m ρ c (Proc.devRef .tc main_v29)) (W5 m ρ c (Proc.devRef .tc main_arg4)) (m ((c : Thread nD τ).loc main_arg5)) (W5 m ρ c (Proc.devRef .tc main_arg6)) = _
  rw [entry1_agg, entry1_x, entry1_wrel, entry1_wroot]
  rfl

/-- Region 2 leaves the first head of what region 1 left in its first result array. -/
theorem first_output (c : Dev nD) :
    W8 m ρ c (Proc.devRef .tc main_v60_0) = Cert.Net.output (W6 m ρ c (Proc.devRef .tc main_v44)) (m ((c : Thread nD τ).loc main_arg7)) (m ((c : Thread nD τ).loc main_arg8)) (m ((c : Thread nD τ).loc main_arg9)) (m ((c : Thread nD τ).loc main_arg13)) := by
  refine (W8_arr m ρ c 8).trans ((Heads.mu_array_eq (V7 m ρ) c (m ((c : Thread nD τ).loc main_arg8)) (entry2_mu_bias m ρ c)).trans ?_)
  show Cert.Net.head (W7 m ρ c (Proc.devRef .tc main_v57)) (W7 m ρ c (Proc.devRef .tc main_v44)) (W7 m ρ c (Proc.devRef .tc main_arg7)) (m ((c : Thread nD τ).loc main_arg8)) (W7 m ρ c (Proc.devRef .tc main_arg9)) = _
  rw [entry2_agg, entry2_x, entry2_mu_wrel, entry2_mu_wroot]
  rfl

/-- And the second head in its second result array. -/
theorem second_output (c : Dev nD) :
    W8 m ρ c (Proc.devRef .tc main_v60_1) = Cert.Net.output (W6 m ρ c (Proc.devRef .tc main_v44)) (m ((c : Thread nD τ).loc main_arg10)) (m ((c : Thread nD τ).loc main_arg11)) (m ((c : Thread nD τ).loc main_arg12)) (m ((c : Thread nD τ).loc main_arg13)) := by
  refine (W8_arr m ρ c 9).trans ((Heads.ls_array_eq (V7 m ρ) c (m ((c : Thread nD τ).loc main_arg11)) (entry2_ls_bias m ρ c)).trans ?_)
  show Cert.Net.head (W7 m ρ c (Proc.devRef .tc main_v57)) (W7 m ρ c (Proc.devRef .tc main_v44)) (W7 m ρ c (Proc.devRef .tc main_arg10)) (m ((c : Thread nD τ).loc main_arg11)) (W7 m ρ c (Proc.devRef .tc main_arg12)) = _
  rw [entry2_agg, entry2_x, entry2_ls_wrel, entry2_ls_wroot]
  rfl

/-- The second hidden features of the kernel's arguments, as the kernel computes them. -/
theorem hidden_eq (c : Dev nD) :
    W6 m ρ c (Proc.devRef .tc main_v44)
      = Cert.Net.hidden2 (Cert.Net.hidden1 (m ((c : Thread nD τ).loc main_arg0)) (m ((c : Thread nD τ).loc main_arg1)) (m ((c : Thread nD τ).loc main_arg2)) (m ((c : Thread nD τ).loc main_arg3)) (m ((c : Thread nD τ).loc main_arg13)))
          (m ((c : Thread nD τ).loc main_arg4)) (m ((c : Thread nD τ).loc main_arg5)) (m ((c : Thread nD τ).loc main_arg6)) (m ((c : Thread nD τ).loc main_arg13)) := by
  rw [second_hidden, first_hidden]

end Cert.KernelIdeal.Whole

end
-- ==== Proof.lean ====
/-
  The certificate of a three-layer graph network.

  Both programs compute, from node features `x`, an edge list and four layers' weights and biases, two outputs
  `mu` and `logstd`.  With `agg f` the mean over incoming edges of the rows of `f` (gather the edges' source rows, add
  them into the destination rows, scale by the reciprocal in-degree),
      h1 = max(agg x · W1_rel + b1 + x · W1_root, 0),   h2 = max(agg h1 · W2_rel + b2 + h1 · W2_root, 0),
      mu = agg h2 · Wmu_rel + bmu + h2 · Wmu_root,      logstd = agg h2 · Wls_rel + bls + h2 · Wls_root.
  The reference applies every operation on the host to whole arrays.  The kernel program computes the three
  aggregations on the host with the same operations, and each layer's products, bias and clamp in a pipelined region
  over 25 blocks of 2000 rows, the two heads in one region.  At the ideal values a change of float format is the
  identity and both matrix products are the plain sums, a block of rows of a product is the product of that block of
  rows, and the kernel's `(a · W_rel + x · W_root) + b` is the reference's `(a · W_rel + b) + x · W_root` by
  commutativity and associativity of the sum of extended reals; no finiteness is used.

  The frames of the two kernel programs are the generated ones; the reference's is its run with the results dropped.
  The idealization rewrote nothing, so `preserves` is trivial.  For the value claim the kernel's run ends with each
  result array at what the last region's write-backs leave (`Named.run_named`), which is the network's output of the
  kernel's arguments (`Whole`), and the reference's run ends at the network's output of its own arguments
  (`Net.res_mu`, `Net.res_ls`); the two memories agree on the arguments.
-/
import proofs.«130011_j27066883899544_1_alg».proof.Defs
import proofs.«130011_j27066883899544_1_alg».proof.Proof.Gen.Kernel
import proofs.«130011_j27066883899544_1_alg».proof.Proof.Gen.Kernel.Skeleton
import proofs.«130011_j27066883899544_1_alg».proof.Proof.Gen.Kernel.Launch
import proofs.«130011_j27066883899544_1_alg».proof.Proof.Gen.Kernel.Points
import proofs.«130011_j27066883899544_1_alg».proof.Proof.Gen.Kernel.Frame
import proofs.«130011_j27066883899544_1_alg».proof.Proof.Gen.KernelIdeal
import proofs.«130011_j27066883899544_1_alg».proof.Proof.Gen.KernelIdeal.Skeleton
import proofs.«130011_j27066883899544_1_alg».proof.Proof.Gen.KernelIdeal.Launch
import proofs.«130011_j27066883899544_1_alg».proof.Proof.Gen.KernelIdeal.Points
import proofs.«130011_j27066883899544_1_alg».proof.Proof.Gen.KernelIdeal.Frame
import proofs.«130011_j27066883899544_1_alg».proof.Proof.Gen.ReferenceIdeal
import proofs.«130011_j27066883899544_1_alg».proof.Proof.Gen.Pre_finite_inputs
import proofs.«130011_j27066883899544_1_alg».proof.Proof.KernelRun
import proofs.«130011_j27066883899544_1_alg».proof.Proof.RefRun
import proofs.«130011_j27066883899544_1_alg».proof.Proof.RefNet
import proofs.«130011_j27066883899544_1_alg».proof.Proof.Whole
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both runs end with their two results at the network's two outputs of arguments on which the memories agree. -/
theorem algebraic : Cert.algebraic_KernelIdeal_ReferenceIdeal := by
  intro m ρ m' ρ' _ hagree
  refine ⟨fun c => Cert.KernelIdeal.Gen.W8 m ρ c (Proc.devRef .tc Cert.KernelIdeal.main_v60_0),
    fun c => Cert.KernelIdeal.Gen.W8 m ρ c (Proc.devRef .tc Cert.KernelIdeal.main_v60_1),
    Cert.KernelIdeal.Named.run_named (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7, a8, a9, a10, a11, a12, a13⟩ := hagree c
    show _ = Cert.KernelIdeal.Gen.W8 m ρ c (Proc.devRef .tc Cert.KernelIdeal.main_v60_0)
    rw [Cert.Net.res_mu, Cert.KernelIdeal.Whole.first_output, Cert.KernelIdeal.Whole.hidden_eq]
    unfold Cert.Net.hiddenOf
    rw [a0, a1, a2, a3, a4, a5, a6, a7, a8, a9, a13]
  · obtain ⟨a0, a1, a2, a3, a4, a5, a6, a7, a8, a9, a10, a11, a12, a13⟩ := hagree c
    show _ = Cert.KernelIdeal.Gen.W8 m ρ c (Proc.devRef .tc Cert.KernelIdeal.main_v60_1)
    rw [Cert.Net.res_ls, Cert.KernelIdeal.Whole.second_output, Cert.KernelIdeal.Whole.hidden_eq]
    unfold Cert.Net.hiddenOf
    rw [a0, a1, a2, a3, a4, a5, a6, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
